-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S256x128 : Shape := ⟨2, ![256, 128]⟩
abbrev S384x128 : Shape := ⟨2, ![384, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg10 : IVec S800000 32) (main_arg11 : IVec S800000 32) (main_v48 : IVec S_ 1) (main_v50 : IVec S800000 1) : IVec S_ 1 :=
  let main_c_19 : IVec S_ 32 := constantI S_ 32 50000#32
  let main_v51 : IVec S800000 32 := broadcastInDim S800000 ![] bcast_S_S800000 main_c_19
  let main_v52 : IVec S800000 1 := cmpi .slt main_arg10 main_v51
  let main_v53 : IVec S800000 1 := andi main_v50 main_v52
  let main_c_20 : IVec S_ 1 := constantI S_ 1 1#1
  let main_v54 : IVec S_ 1 := (fun x v => Host.reduce IntOp.andi x v reducesTo_S800000_S_d0 h_S_) main_v53 main_c_20
  let main_v55 : IVec S_ 1 := andi main_v48 main_v54
  let main_c_21 : IVec S_ 32 := constantI S_ 32 0#32
  let main_v56 : IVec S800000 32 := broadcastInDim S800000 ![] bcast_S_S800000 main_c_21
  let main_v57 : IVec S800000 1 := cmpi .sge main_arg11 main_v56
  let main_c_22 : IVec S_ 32 := constantI S_ 32 50000#32
  let main_v58 : IVec S800000 32 := broadcastInDim S800000 ![] bcast_S_S800000 main_c_22
  let main_v59 : IVec S800000 1 := cmpi .slt main_arg11 main_v58
  let main_v60 : IVec S800000 1 := andi main_v57 main_v59
  let main_c_23 : IVec S_ 1 := constantI S_ 1 1#1
  let main_v61 : IVec S_ 1 := (fun x v => Host.reduce IntOp.andi x v reducesTo_S800000_S_d0 h_S_) main_v60 main_c_23
  let main_v62 : IVec S_ 1 := andi main_v55 main_v61
  main_v62

def fn_part2 {F : FTy → Type} [FloatOps F] (main_arg7 : FVec F S128 .f32) (main_arg8 : FVec F S256x128 .f32) (main_arg9 : FVec F S128 .f32) (main_arg10 : IVec S800000 32) (main_arg11 : IVec S800000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg10 main_v49
  fn_part3 (F := F) main_arg10 main_arg11 main_v48 main_v50

def fn_part1 {F : FTy → Type} [FloatOps F] (main_arg4 : FVec F S256x128 .f32) (main_arg5 : FVec F S128 .f32) (main_arg6 : FVec F S384x128 .f32) (main_arg7 : FVec F S128 .f32) (main_arg8 : FVec F S256x128 .f32) (main_arg9 : FVec F S128 .f32) (main_arg10 : IVec S800000 32) (main_arg11 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg6
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x64 .f32) (main_arg1 : FVec F S800000x64 .f32) (main_arg2 : FVec F S192x128 .f32) (main_arg3 : FVec F S128 .f32) (main_arg4 : FVec F S256x128 .f32) (main_arg5 : FVec F S128 .f32) (main_arg6 : FVec F S384x128 .f32) (main_arg7 : FVec F S128 .f32) (main_arg8 : FVec F S256x128 .f32) (main_arg9 : FVec F S128 .f32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S256x128 : Shape := ⟨2, ![256, 128]⟩
abbrev S384x128 : Shape := ⟨2, ![384, 128]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S64x128 : Shape := ⟨2, ![64, 128]⟩
abbrev S128x128 : Shape := ⟨2, ![128, 128]⟩
abbrev S1x128 : Shape := ⟨2, ![1, 128]⟩
abbrev S2000x64 : Shape := ⟨2, ![2000, 64]⟩
abbrev S2000x128 : Shape := ⟨2, ![2000, 128]⟩
abbrev S4000x128 : Shape := ⟨2, ![4000, 128]⟩
abbrev S800000x256 : Shape := ⟨2, ![800000, 256]⟩
abbrev S50000x256 : Shape := ⟨2, ![50000, 256]⟩
abbrev S2000x256 : Shape := ⟨2, ![2000, 256]⟩

abbrev nBuf : Space → Nat
  | .hbm => 200
  | .vmem => 36
  | .smem => 0
  | _ => 0

abbrev hbmTy0_0 (i : Nat) : BufTy := match i % 128 with
  | 0 => ⟨S50000x64, .f32⟩
  | 1 => ⟨S800000x64, .f32⟩
  | 2 => ⟨S192x128, .f32⟩
  | 3 => ⟨S128, .f32⟩
  | 4 => ⟨S256x128, .f32⟩
  | 5 => ⟨S128, .f32⟩
  | 6 => ⟨S384x128, .f32⟩
  | 7 => ⟨S128, .f32⟩
  | 8 => ⟨S256x128, .f32⟩
  | 9 => ⟨S128, .f32⟩
  | 10 => ⟨S800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S1, .i32⟩
  | 21 => ⟨S_, .i32⟩
  | 22 => ⟨S800000x1, .i32⟩
  | 23 => ⟨S800000x1, .i1⟩
  | 24 => ⟨S1x1, .i32⟩
  | 25 => ⟨S800000x1, .i32⟩
  | 26 => ⟨S800000x1, .i1⟩
  | 27 => ⟨S800000x1, .i1⟩
  | 28 => ⟨S_, .i1⟩
  | 29 => ⟨S800000, .i1⟩
  | 30 => ⟨S800000x64, .f32⟩
  | 31 => ⟨S800000x64, .i1⟩
  | 32 => ⟨S_, .f32⟩
  | 33 => ⟨S800000x64, .f32⟩
  | 34 => ⟨S800000x64, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S64x128, .f32⟩
  | 53 => ⟨S128x128, .f32⟩
  | 54 => ⟨S1x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S1, .i32⟩
  | 65 => ⟨S_, .i32⟩
  | 66 => ⟨S800000x1, .i32⟩
  | 67 => ⟨S800000x1, .i1⟩
  | 68 => ⟨S1x1, .i32⟩
  | 69 => ⟨S800000x1, .i32⟩
  | 70 => ⟨S800000x1, .i1⟩
  | 71 => ⟨S800000x1, .i1⟩
  | 72 => ⟨S_, .i1⟩
  | 73 => ⟨S800000, .i1⟩
  | 74 => ⟨S800000x128, .f32⟩
  | 75 => ⟨S800000x128, .i1⟩
  | 76 => ⟨S_, .f32⟩
  | 77 => ⟨S800000x128, .f32⟩
  | 78 => ⟨S800000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S1, .i32⟩
  | 88 => ⟨S_, .i32⟩
  | 89 => ⟨S800000x1, .i32⟩
  | 90 => ⟨S800000x1, .i1⟩
  | 91 => ⟨S1x1, .i32⟩
  | 92 => ⟨S800000x1, .i32⟩
  | 93 => ⟨S800000x1, .i1⟩
  | 94 => ⟨S800000x1, .i1⟩
  | 95 => ⟨S_, .i1⟩
  | 96 => ⟨S800000, .i1⟩
  | 97 => ⟨S800000x128, .f32⟩
  | 98 => ⟨S800000x128, .i1⟩
  | 99 => ⟨S_, .f32⟩
  | 100 => ⟨S800000x128, .f32⟩
  | 101 => ⟨S800000x128, .f32⟩
  | 102 => ⟨S128x128, .f32⟩
  | 103 => ⟨S128x128, .f32⟩
  | 104 => ⟨S1x128, .f32⟩
  | 105 => ⟨S800000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S1, .i32⟩
  | 115 => ⟨S_, .i32⟩
  | 116 => ⟨S800000x1, .i32⟩
  | 117 => ⟨S800000x1, .i1⟩
  | 118 => ⟨S1x1, .i32⟩
  | 119 => ⟨S800000x1, .i32⟩
  | 120 => ⟨S800000x1, .i1⟩
  | 121 => ⟨S800000x1, .i1⟩
  | 122 => ⟨S_, .i1⟩
  | 123 => ⟨S800000, .i1⟩
  | 124 => ⟨S800000x128, .f32⟩
  | 125 => ⟨S800000x128, .i1⟩
  | 126 => ⟨S_, .f32⟩
  | 127 => ⟨S800000x128, .f32⟩
  | _ => ⟨S50000x64, .f32⟩

abbrev hbmTy0_1 (i : Nat) : BufTy := match i % 128 with
  | 0 => ⟨S800000x128, .f32⟩
  | 1 => ⟨S800000x256, .f32⟩
  | 2 => ⟨S_, .f32⟩
  | 3 => ⟨S50000x256, .f32⟩
  | 4 => ⟨S800000x1, .i32⟩
  | 5 => ⟨S50000x256, .f32⟩
  | 6 => ⟨S_, .f32⟩
  | 7 => ⟨S800000, .f32⟩
  | 8 => ⟨S_, .f32⟩
  | 9 => ⟨S50000, .f32⟩
  | 10 => ⟨S800000x1, .i32⟩
  | 11 => ⟨S50000, .f32⟩
  | 12 => ⟨S_, .f32⟩
  | 13 => ⟨S50000, .f32⟩
  | 14 => ⟨S50000, .f32⟩
  | 15 => ⟨S50000x1, .f32⟩
  | 16 => ⟨S50000x256, .f32⟩
  | 17 => ⟨S50000x256, .f32⟩
  | 18 => ⟨S128x128, .f32⟩
  | 19 => ⟨S256x128, .f32⟩
  | 20 => ⟨S1x128, .f32⟩
  | 21 => ⟨S50000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S1, .i32⟩
  | 31 => ⟨S_, .i32⟩
  | 32 => ⟨S800000x1, .i32⟩
  | 33 => ⟨S800000x1, .i1⟩
  | 34 => ⟨S1x1, .i32⟩
  | 35 => ⟨S800000x1, .i32⟩
  | 36 => ⟨S800000x1, .i1⟩
  | 37 => ⟨S800000x1, .i1⟩
  | 38 => ⟨S_, .i1⟩
  | 39 => ⟨S800000, .i1⟩
  | 40 => ⟨S800000x128, .f32⟩
  | 41 => ⟨S800000x128, .i1⟩
  | 42 => ⟨S_, .f32⟩
  | 43 => ⟨S800000x128, .f32⟩
  | 44 => ⟨S800000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S1, .i32⟩
  | 54 => ⟨S_, .i32⟩
  | 55 => ⟨S800000x1, .i32⟩
  | 56 => ⟨S800000x1, .i1⟩
  | 57 => ⟨S1x1, .i32⟩
  | 58 => ⟨S800000x1, .i32⟩
  | 59 => ⟨S800000x1, .i1⟩
  | 60 => ⟨S800000x1, .i1⟩
  | 61 => ⟨S_, .i1⟩
  | 62 => ⟨S800000, .i1⟩
  | 63 => ⟨S800000x128, .f32⟩
  | 64 => ⟨S800000x128, .i1⟩
  | 65 => ⟨S_, .f32⟩
  | 66 => ⟨S800000x128, .f32⟩
  | 67 => ⟨S800000x128, .f32⟩
  | 68 => ⟨S128x128, .f32⟩
  | 69 => ⟨S128x128, .f32⟩
  | 70 => ⟨S1x128, .f32⟩
  | 71 => ⟨S800000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x128, .f32⟩
  | .local _ .vmem, ⟨3, _⟩ => ⟨S2000x128, .f32⟩
  | .local _ .vmem, ⟨4, _⟩ => ⟨S64x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S2000x128, .f32⟩
  | .local _ .vmem, ⟨19, _⟩ => ⟨S2000x128, .f32⟩
  | .local _ .vmem, ⟨20, _⟩ => ⟨S2000x256, .f32⟩
  | .local _ .vmem, ⟨21, _⟩ => ⟨S2000x256, .f32⟩
  | .local _ .vmem, ⟨22, _⟩ => ⟨S128x128, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_cst_0 : Ref sig .tc := ⟨.hbm, 40, rfl⟩
abbrev main_v5 : Ref sig .tc := ⟨.hbm, 41, rfl⟩
abbrev main_cst_1 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_2 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v18 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v24 : Ref sig .tc := ⟨.hbm, 128, rfl⟩
abbrev main_v25 : Ref sig .tc := ⟨.hbm, 129, rfl⟩
abbrev main_cst_3 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst_4 : Ref sig .tc := ⟨.hbm, 134, rfl⟩
abbrev main_v29 : Ref sig .tc := ⟨.hbm, 135, rfl⟩
abbrev main_cst_5 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_cst_6 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_v14 : Ref sig .tc := ⟨.hbm, 169, rfl⟩
abbrev main_call4_cst : Ref sig .tc := ⟨.hbm, 170, rfl⟩
abbrev main_call4_v15 : Ref sig .tc := ⟨.hbm, 171, rfl⟩
abbrev main_v42 : Ref sig .tc := ⟨.hbm, 172, rfl⟩
abbrev main_call5_c : Ref sig .tc := ⟨.hbm, 173, rfl⟩
abbrev main_call5_v0 : Ref sig .tc := ⟨.hbm, 174, rfl⟩
abbrev main_call5_v1 : Ref sig .tc := ⟨.hbm, 175, rfl⟩
abbrev main_call5_c_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_c_1 : Ref sig .tc := ⟨.hbm, 181, rfl⟩
abbrev main_call5_c_2 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_3 : Ref sig .tc := ⟨.hbm, 189, rfl⟩
abbrev main_call5_v12 : Ref sig .tc := ⟨.hbm, 190, rfl⟩
abbrev main_call5_v13 : Ref sig .tc := ⟨.hbm, 191, rfl⟩
abbrev main_call5_v14 : Ref sig .tc := ⟨.hbm, 192, rfl⟩
abbrev main_call5_cst : Ref sig .tc := ⟨.hbm, 193, rfl⟩
abbrev main_call5_v15 : Ref sig .tc := ⟨.hbm, 194, rfl⟩
abbrev main_v43 : Ref sig .tc := ⟨.hbm, 195, rfl⟩
abbrev main_v44 : Ref sig .tc := ⟨.hbm, 196, rfl⟩
abbrev main_v45 : Ref sig .tc := ⟨.hbm, 197, rfl⟩
abbrev main_v46 : Ref sig .tc := ⟨.hbm, 198, rfl⟩
abbrev main_v47 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x128_d1 : Shape.Concatenates [S800000x64, S800000x64] S800000x128 1
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S192x128_S64x128_0_0 : S192x128.Slices ![0, 0] S64x128
  slices_S192x128_S128x128_64_0 : S192x128.Slices ![64, 0] S128x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x128_S128x128_0_0 : S256x128.Slices ![0, 0] S128x128
  slices_S256x128_S128x128_128_0 : S256x128.Slices ![128, 0] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S1x128_S4000x128 : S1x128.Broadcasts S4000x128
  concatenates_S800000x128_S800000x128_S800000x256_d1 : Shape.Concatenates [S800000x128, S800000x128] S800000x256 1
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  slices_S384x128_S128x128_0_0 : S384x128.Slices ![0, 0] S128x128
  slices_S384x128_S256x128_128_0 : S384x128.Slices ![128, 0] S256x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .f32 = 32 ∨ (Rect.block (s := S800000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S800000x128.size a
  hwx3_0 : ∀ i : grid3.Coords, EltTy.bits .f32 = 32 ∨ (Rect.block (s := S800000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S800000x128.size a
  hwx3_1 : ∀ i : grid3.Coords, EltTy.bits .f32 = 32 ∨ (Rect.block (s := S800000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S800000x128.size a
  hwx3_5 : ∀ i : grid3.Coords, EltTy.bits .f32 = 32 ∨ (Rect.block (s := S800000x128) S4000x128.size (cc3_transform_5 i) (hinb3_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S256x128 : Shape := ⟨2, ![256, 128]⟩
abbrev S384x128 : Shape := ⟨2, ![384, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S50000x192 : Shape := ⟨2, ![50000, 192]⟩
abbrev S1x128 : Shape := ⟨2, ![1, 128]⟩
abbrev S800000x256 : Shape := ⟨2, ![800000, 256]⟩
abbrev S50000x256 : Shape := ⟨2, ![50000, 256]⟩
abbrev S50000x384 : Shape := ⟨2, ![50000, 384]⟩

abbrev nBuf : Space → Nat
  | .hbm => 132
  | .vmem => 0
  | .smem => 0
  | _ => 0

abbrev hbmTy0_0 (i : Nat) : BufTy := match i % 128 with
  | 0 => ⟨S50000x64, .f32⟩
  | 1 => ⟨S800000x64, .f32⟩
  | 2 => ⟨S192x128, .f32⟩
  | 3 => ⟨S128, .f32⟩
  | 4 => ⟨S256x128, .f32⟩
  | 5 => ⟨S128, .f32⟩
  | 6 => ⟨S384x128, .f32⟩
  | 7 => ⟨S128, .f32⟩
  | 8 => ⟨S256x128, .f32⟩
  | 9 => ⟨S128, .f32⟩
  | 10 => ⟨S800000, .i32⟩
  | 11 => ⟨S800000, .i32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S50000x192, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S800000x256, .f32⟩
  | 65 => ⟨S800000x128, .f32⟩
  | 66 => ⟨S1x128, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S800000x256, .f32⟩
  | 82 => ⟨S_, .f32⟩
  | 83 => ⟨S50000x256, .f32⟩
  | 84 => ⟨S800000x1, .i32⟩
  | 85 => ⟨S50000x256, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x256, .f32⟩
  | 97 => ⟨S50000x256, .f32⟩
  | 98 => ⟨S50000x384, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x256, .f32⟩
  | 125 => ⟨S800000x128, .f32⟩
  | 126 => ⟨S1x128, .f32⟩
  | 127 => ⟨S800000x128, .f32⟩
  | _ => ⟨S50000x64, .f32⟩

abbrev hbmTy0_1 (i : Nat) : BufTy := match i % 128 with
  | 0 => ⟨S800000x128, .f32⟩
  | 1 => ⟨S_, .f32⟩
  | 2 => ⟨S800000x128, .f32⟩
  | 3 => ⟨S800000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_cst : Ref sig .tc := ⟨.hbm, 69, rfl⟩
abbrev main_call1_v0 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_cst : Ref sig .tc := ⟨.hbm, 103, rfl⟩
abbrev main_call2_v0 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_16 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x64_S50000x128_S50000x192_d1 : Shape.Concatenates [S50000x64, S50000x128] S50000x192 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  concatenates_S50000x128_S50000x256_S50000x384_d1 : Shape.Concatenates [S50000x128, S50000x256] S50000x384 1
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x192_S192x128_S50000x128_1_0_0_1_n_n_wf : DotDims.WF S50000x192 S192x128 S50000x128 [1] [0] [0] [1] [] []
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x256_S800000x1_S800000x256_1_0_0_1_wf : ScatterDims.WF S50000x256 S800000x1 S800000x256 [1] [0] [0] 1
  dot_S50000x384_S384x128_S50000x128_1_0_0_1_n_n_wf : DotDims.WF S50000x384 S384x128 S50000x128 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.RefRun.lean ====
/-
  The reference's run, read stage by stage.

  The reference is a straight line of host operations. Its list is four stretches, one per dense layer, and the fold of the
  whole list is the fold of the last stretch over the fold of the third over … over the launch contents. After each stretch
  the layer's output buffer holds the stage of the launch arguments that bears its name — read off the stretch's own
  operations, the stretches before entering only through the few buffers this one reads — and no stretch writes an argument.
  So every weakly fair execution terminates with the two results at the last two stages and the arguments unchanged.
-/
import proofs.«405045_j8297876816047_1_alg».proof.Proof.RefOps
import proofs.«405045_j8297876816047_1_alg».proof.Proof.RefStages
import Idealize.ShloMosaic.Lib.Pipeline.Frame
import Idealize.ShloMosaic.Lib.StableHlo.Run

set_option maxRecDepth 16384

noncomputable section

namespace Cert.ReferenceIdeal.RunStages

open Cert.ReferenceIdeal Cert.ReferenceIdeal.Gen Idealize.ShloMosaic Idealize.ShloMosaic.TcCoe Idealize.SL.Sem Idealize.ShloMosaic.StableHlo
open Cert.ReferenceIdeal.Ops Cert.ReferenceIdeal.Stages

variable {F : FTy → Type} [FloatOps F]
variable (m : (ℓ : Loc nD τ sig) → Buf (Elt F) ℓ)

/-! ## The fold after each stretch -/

/-- After the first node layer's operations. -/
def U1 (c : Dev nD) : Valuation τ sig (Elt F) := after ops1 (launchContents m c)
/-- After the first edge layer's. -/
def U2 (c : Dev nD) : Valuation τ sig (Elt F) := after ops2 (U1 m c)
/-- After the second node layer's. -/
def U3 (c : Dev nD) : Valuation τ sig (Elt F) := after ops3 (U2 m c)
/-- After the second edge layer's: the end of @main. -/
def U4 (c : Dev nD) : Valuation τ sig (Elt F) := after ops4 (U3 m c)

/-- The fold of the whole list is the fold of its stretches in turn. -/
theorem after_ops (c : Dev nD) : after (ops : List (HloOp τ sig (Elt F))) (launchContents m c) = U4 m c := by
  rw [ops_cut, StableHlo.after_append, StableHlo.after_append, StableHlo.after_append]
  rfl

/-! ## Stretch 1: the first node layer -/

set_option maxHeartbeats 4000000 in
theorem stage25 (c : Dev nD) :
    U1 m c (Proc.devRef .tc main_v25) = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) := by
  unfold U1
  dsimp only [ops1]
  after_results
  rfl

set_option maxHeartbeats 8000000 in
theorem args1 (c : Dev nD) (b : Ref sig .tc) (hb : b ∈ [main_arg0, main_arg1, main_arg2, main_arg3, main_arg4, main_arg5, main_arg6, main_arg7, main_arg8,
      main_arg9, main_arg10, main_arg11]) :
    U1 m c (Proc.devRef .tc b) = m ((c.tc : Thread nD τ).loc b) := by
  simp only [List.mem_cons, List.mem_nil_iff, or_false] at hb
  rcases hb with rfl | rfl | rfl | rfl | rfl | rfl | rfl | rfl | rfl | rfl | rfl | rfl <;>
    (unfold U1; dsimp only [ops1]; after_results; try rfl)

/-! ## Stretch 2: the first edge layer -/

set_option maxHeartbeats 4000000 in
theorem stage45 (c : Dev nD) :
    U2 m c (Proc.devRef .tc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) := by
  have h25 := stage25 m c
  have h4 := args1 m c main_arg4 (by decide)
  have h5 := args1 m c main_arg5 (by decide)
  have h10 := args1 m c main_arg10 (by decide)
  have h11 := args1 m c main_arg11 (by decide)
  unfold U2
  dsimp only [ops2]
  generalize U1 m c = U at h25 h4 h5 h10 h11 ⊢
  after_results
  rw [h25, h4, h5, h10, h11]
  rfl

set_option maxHeartbeats 4000000 in
/-- The first node layer's output is not written by the second stretch. -/
theorem nodes2 (c : Dev nD) :
    U2 m c (Proc.devRef .tc main_v25) = val_main_v25 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg10)) (m ((c.tc : Thread nD τ).loc main_arg11)) := by
  refine Eq.trans ?_ (stage25 m c)
  unfold U2
  dsimp only [ops2]
  generalize U1 m c = U
  after_results

set_option maxHeartbeats 8000000 in
theorem args2 (c : Dev nD) (b : Ref sig .tc) (hb : b ∈ [main_arg0, main_arg1, main_arg2, main_arg3, main_arg4, main_arg5, main_arg6, main_arg7, main_arg8,
      main_arg9, main_arg10, main_arg11]) :
    U2 m c (Proc.devRef .tc b) = m ((c.tc : Thread nD τ).loc b) := by
  simp only [List.mem_cons, List.mem_nil_iff, or_false] at hb
  rcases hb with rfl | rfl | rfl | rfl | rfl | rfl | rfl | rfl | rfl | rfl | rfl | rfl <;>
    (refine Eq.trans ?_ (args1 m c _ (by decide)); unfold U2; dsimp only [ops2]; generalize U1 m c = U; after_results)

/-! ## Stretch 3: the second node layer -/

set_option maxHeartbeats 4000000 in
theorem stage71 (c : Dev nD) :
    U3 m c (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) := by
  have h25 := nodes2 m c
  have h45 := stage45 m c
  have h6 := args2 m c main_arg6 (by decide)
  have h7 := args2 m c main_arg7 (by decide)
  have h10 := args2 m c main_arg10 (by decide)
  have h11 := args2 m c main_arg11 (by decide)
  unfold U3
  dsimp only [ops3]
  generalize U2 m c = U at h25 h45 h6 h7 h10 h11 ⊢
  after_results
  rw [h25, h45, h6, h7, h10, h11]
  rfl

set_option maxHeartbeats 8000000 in
theorem args3 (c : Dev nD) (b : Ref sig .tc) (hb : b ∈ [main_arg0, main_arg1, main_arg2, main_arg3, main_arg4, main_arg5, main_arg6, main_arg7, main_arg8,
      main_arg9, main_arg10, main_arg11]) :
    U3 m c (Proc.devRef .tc b) = m ((c.tc : Thread nD τ).loc b) := by
  simp only [List.mem_cons, List.mem_nil_iff, or_false] at hb
  rcases hb with rfl | rfl | rfl | rfl | rfl | rfl | rfl | rfl | rfl | rfl | rfl | rfl <;>
    (refine Eq.trans ?_ (args2 m c _ (by decide)); unfold U3; dsimp only [ops3]; generalize U2 m c = U; after_results)

/-! ## Stretch 4: the second edge layer -/

set_option maxHeartbeats 4000000 in
theorem stage91 (c : Dev nD) :
    U4 m c (Proc.devRef .tc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h71 := stage71 m c
  have h8 := args3 m c main_arg8 (by decide)
  have h9 := args3 m c main_arg9 (by decide)
  have h10 := args3 m c main_arg10 (by decide)
  have h11 := args3 m c main_arg11 (by decide)
  unfold U4
  dsimp only [ops4]
  generalize U3 m c = U at h71 h8 h9 h10 h11 ⊢
  after_results
  rw [h71, h8, h9, h10, h11]
  rfl

set_option maxHeartbeats 4000000 in
/-- The second node layer's output, the first result, is not written by the last stretch. -/
theorem nodes4 (c : Dev nD) :
    U4 m c (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) := by
  refine Eq.trans ?_ (stage71 m c)
  unfold U4
  dsimp only [ops4]
  generalize U3 m c = U
  after_results

set_option maxHeartbeats 8000000 in
theorem args4 (c : Dev nD) (b : Ref sig .tc) (hb : b ∈ [main_arg0, main_arg1, main_arg2, main_arg3, main_arg4, main_arg5, main_arg6, main_arg7, main_arg8,
      main_arg9, main_arg10, main_arg11]) :
    U4 m c (Proc.devRef .tc b) = m ((c.tc : Thread nD τ).loc b) := by
  simp only [List.mem_cons, List.mem_nil_iff, or_false] at hb
  rcases hb with rfl | rfl | rfl | rfl | rfl | rfl | rfl | rfl | rfl | rfl | rfl | rfl <;>
    (refine Eq.trans ?_ (args3 m c _ (by decide)); unfold U4; dsimp only [ops4]; generalize U3 m c = U; after_results)

/-! ## The run -/

/-- No operation of the reference allocates a buffer. -/
theorem ops_fresh : (ops : List (HloOp τ sig (Elt F))).Forall fun op => op.fresh = ∅ := by
  simp only [List.Forall]; repeat' constructor

set_option maxHeartbeats 4000000 in
/-- On every device, from any memory with zero counters: every weakly fair execution of the reference terminates with its two
    results at the last two stages of the launch arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11))
      ∧ r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v71).trans ((congrFun (after_ops m c) _).trans (nodes4 m c)),
     (h c main_v91).trans ((congrFun (after_ops m c) _).trans (stage91 m c)),
     (h c main_arg0).trans ((congrFun (after_ops m c) _).trans (args4 m c main_arg0 (by decide))),
     (h c main_arg1).trans ((congrFun (after_ops m c) _).trans (args4 m c main_arg1 (by decide))),
     (h c main_arg2).trans ((congrFun (after_ops m c) _).trans (args4 m c main_arg2 (by decide))),
     (h c main_arg3).trans ((congrFun (after_ops m c) _).trans (args4 m c main_arg3 (by decide))),
     (h c main_arg4).trans ((congrFun (after_ops m c) _).trans (args4 m c main_arg4 (by decide))),
     (h c main_arg5).trans ((congrFun (after_ops m c) _).trans (args4 m c main_arg5 (by decide))),
     (h c main_arg6).trans ((congrFun (after_ops m c) _).trans (args4 m c main_arg6 (by decide))),
     (h c main_arg7).trans ((congrFun (after_ops m c) _).trans (args4 m c main_arg7 (by decide))),
     (h c main_arg8).trans ((congrFun (after_ops m c) _).trans (args4 m c main_arg8 (by decide))),
     (h c main_arg9).trans ((congrFun (after_ops m c) _).trans (args4 m c main_arg9 (by decide))),
     (h c main_arg10).trans ((congrFun (after_ops m c) _).trans (args4 m c main_arg10 (by decide))),
     (h c main_arg11).trans ((congrFun (after_ops m c) _).trans (args4 m c main_arg11 (by decide)))⟩)
    (run_seq scopedRefs_eq scopedSems_eq defs main (fun _ => ops) main_eq (fun _ => ops_sub) m ρ
      (fun _ op hop => (List.forall_iff_forall_mem.mp ops_fresh) op hop))

end Cert.ReferenceIdeal.RunStages

end
-- ==== Proof.TakeMask.lean ====
/-
  The in-range mask of the kernel's row lookup.

  A row lookup in "fill" mode first wraps a negative index (`n = if idx < 0 then idx + 50000 else idx`), reads row
  `n`, and keeps the row only where `0 ≤ n ≤ 49999`, putting a NaN row elsewhere. For an index vector all of whose
  entries lie in `[0, 50000)` nothing is wrapped and the test holds at every entry: the mask is the all-ones
  vector, and a select under an all-ones mask returns its first branch. So on in-range indices the lookup is the
  bare gather at the wrapped index — which is what indexing `x[idx]` computes.
-/
import proofs.«405045_j8297876816047_1_alg».proof.KernelIdeal
import Idealize.ShloMosaic.PureOps.Reduce

noncomputable section

namespace Cert.TakeMask

open Idealize.ShloMosaic Cert.KernelIdeal

variable [Cert.KernelIdeal.Facts₀]
open Cert.KernelIdeal.Facts₀

/-- Every entry of a 32-bit index vector lies in `[0, 50000)`, as signed words. -/
def InRange (idx : IVec S800000 32) : Prop := ∀ i, (0#32).sle (idx i) = true ∧ (idx i).slt (50000#32) = true

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- An `and`-reduction from 1 of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) :
    Host.reduce IntOp.andi x init h hu = fun _ => 1#1 := by
  funext j
  rw [Host.reduce_eq_foldl, hinit]
  exact foldl_andi_ones x _ fun n _ => hx n

/-- One word in `[0, 50000)`: it is not wrapped, and the wrapped word passes `0 ≤ · ≤ 49999`. -/
theorem word_test (w : BitVec 32) (h0 : (0#32).sle w = true) (h1 : w.slt (50000#32) = true) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have e0 : (0#32 : BitVec 32).toInt = 0 := by decide
  have e1 : (50000#32 : BitVec 32).toInt = 50000 := by decide
  have e2 : (49999#32 : BitVec 32).toInt = 49999 := by decide
  simp only [BitVec.sle, BitVec.slt, decide_eq_true_eq, e0, e1] at h0 h1
  have hlt : w.slt 0#32 = false := by simp only [BitVec.slt, e0, decide_eq_false_iff_not, not_lt]; exact h0
  have hge : (0#32).sle w = true := by simp only [BitVec.sle, e0, decide_eq_true_eq]; exact h0
  have hle : w.sle 49999#32 = true := by simp only [BitVec.sle, e2, decide_eq_true_eq]; omega
  have hsel : Scalar.select (IntOp.cmpi .slt w 0#32) (IntOp.addi w 50000#32) w = w := by
    show (if BitVec.ofBool (w.slt 0#32) = 1 then IntOp.addi w 50000#32 else w) = w
    rw [hlt]; rfl
  rw [hsel]
  show IntOp.andi (BitVec.ofBool ((0#32).sle w)) (BitVec.ofBool (w.sle 49999#32)) = 1#1
  rw [hge, hle]; rfl

/-- The wrapped index column: `idx + 50000` where `idx < 0`, else `idx`, as an [800000, 1] column. -/
abbrev wrapped (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The range test on the wrapped column, reduced along its unit axis: all ones on in-range indices. -/
theorem mask_ones (idx : IVec S800000 32) (h : InRange idx) :
    Host.reduce IntOp.andi
      (andi (cmpi .sge (wrapped idx) (broadcastInDim S800000x1 ![] bcast_S_S800000x1 (constantI S_ 32 0#32)))
        (cmpi .sle (wrapped idx) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_ = fun _ => 1#1 :=
  reduce_andi_of_all _ _ _ _ rfl fun j => word_test _ (h _).1 (h _).2

/-- A select under the all-ones mask is its first branch. -/
theorem select_ones {s : Shape} {α : Type} (a b : s.Idx → α) : select (fun _ => 1#1) a b = a := rfl

/-- A broadcast of the all-ones vector is all ones. -/
theorem bcast_ones {s t : Shape} (dims : Fin s.rank → Fin t.rank) (h : s.BroadcastsInDim t dims) :
    broadcastInDim t dims h (fun _ : s.Idx => (1#1 : BitVec 1)) = fun _ => 1#1 := rfl

/-- A transport there and back is the identity. -/
theorem cast_round {α β : Type} (h : α = β) (h' : β = α) (v : α) : cast h' (cast h v) = v := by subst h; rfl

/-- A transported value is, heterogeneously, the value. -/
theorem cast_heq_self {α β : Type} (h : α = β) (a : α) : HEq (cast h a) a := by subst h; rfl

/-- An outlined function's values pass from one operation to the next through a transport into the buffer's type and back:
    removes every such round trip. -/
macro "strip_transports" : tactic =>
  `(tactic| simp only [Idealize.ShloMosaic.StableHlo.TRef.ofBuf, Idealize.ShloMosaic.StableHlo.TRef.toBuf, Cert.TakeMask.cast_round])

/-- Closes a lookup goal `transport (select mask (gather (transport x) (wrapped (transport idx))) nan) = gather x (wrapped idx)`:
    names the two transported leaves (each equal to what it transports), strips the outer transport, and applies the
    lookup lemma `lem` with the range fact `hr` of the index vector. -/
macro "close_lookup" idxT:term "," xT:term "," xTy:term "," hr:term "," lem:term : tactic =>
  `(tactic| (
    generalize hI : (cast _ $idxT : IVec Cert.KernelIdeal.S800000 32) = idx
    generalize hX : (cast _ $xT : $xTy) = x
    have eI : idx = $idxT := hI.symm.trans (eq_of_heq (Cert.TakeMask.cast_heq_self _ _))
    have eX : x = $xT := hX.symm.trans (eq_of_heq (Cert.TakeMask.cast_heq_self _ _))
    have hr' : Cert.TakeMask.InRange idx := eI ▸ $hr
    rw [← eI, ← eX]
    exact eq_of_heq ((Cert.TakeMask.cast_heq_self _ _).trans (heq_of_eq ($lem x idx hr')))))

variable {F : FTy → Type} [FloatOps F]

/-- A 64-wide row lookup on in-range indices: the masked select is the bare gather at the wrapped column. -/
theorem lookup64 (x : FVec F S50000x64 .f32) (idx : IVec S800000 32) (h : InRange idx) :
    select
        (broadcastInDim S800000x64 ![0] bcast_S800000_S800000x64_0
          (Host.reduce IntOp.andi
            (andi (cmpi .sge (wrapped idx) (broadcastInDim S800000x1 ![] bcast_S_S800000x1 (constantI S_ 32 0#32)))
              (cmpi .sle (wrapped idx) (broadcastInDim S800000x1 ![0, 1] bcast_S1x1_S800000x1_0_1
                (broadcastInDim S1x1 ![1] bcast_S1_S1x1_1 (constantI S1 32 49999#32)))))
            (constantI S_ 1 1#1) reducesTo_S800000x1_S800000_d1 h_S_))
        (Host.gather gather_S50000x64_S800000x1_S800000x64_1_0_n_n_0_1_164 x (wrapped idx))
        (broadcastInDim S800000x64 ![] bcast_S_S800000x64 (constant S_ .f32 0x7FC00000#32))
      = Host.gather gather_S50000x64_S800000x1_S800000x64_1_0_n_n_0_1_164 x (wrapped idx) := by
  rw [mask_ones idx h, bcast_ones, select_ones]

/-- The same for a 128-wide row lookup. -/
theorem lookup128 (x : FVec F S50000x128 .f32) (idx : IVec S800000 32) (h : InRange idx) :
    select
        (broadcastInDim S800000x128 ![0] bcast_S800000_S800000x128_0
          (Host.reduce IntOp.andi
            (andi (cmpi .sge (wrapped idx) (broadcastInDim S800000x1 ![] bcast_S_S800000x1 (constantI S_ 32 0#32)))
              (cmpi .sle (wrapped idx) (broadcastInDim S800000x1 ![0, 1] bcast_S1x1_S800000x1_0_1
                (broadcastInDim S1x1 ![1] bcast_S1_S1x1_1 (constantI S1 32 49999#32)))))
            (constantI S_ 1 1#1) reducesTo_S800000x1_S800000_d1 h_S_))
        (Host.gather gather_S50000x128_S800000x1_S800000x128_1_0_n_n_0_1_1128 x (wrapped idx))
        (broadcastInDim S800000x128 ![] bcast_S_S800000x128 (constant S_ .f32 0x7FC00000#32))
      = Host.gather gather_S50000x128_S800000x1_S800000x128_1_0_n_n_0_1_1128 x (wrapped idx) := by
  rw [mask_ones idx h, bcast_ones, select_ones]

end Cert.TakeMask

end
-- ==== Proof.PreRange.lean ====
/-
  The index ranges, read out of the precondition.

  The precondition is a conjunction whose last two conjuncts are `all((u ≥ 0) ∧ (u < 50000))` and the same of `v`.
  Printed, each is an `and`-reduction from 1 of the pointwise `and` of two signed compares against splat
  constants, and the whole is the `and` of these one-bit results. A one-bit `and` is 1 only if both sides are, and
  an `and`-reduction that came out 1 met only ones: so every entry of `u` and of `v` passes both compares.
-/
import proofs.«405045_j8297876816047_1_alg».proof.Defs
import proofs.«405045_j8297876816047_1_alg».proof.Proof.TakeMask
import Idealize.ShloMosaic.Lib.ReduceAll

noncomputable section

namespace Cert.PreRange

open Idealize.ShloMosaic

section Decode
open Cert.Pre_finite_inputs
variable [Cert.Pre_finite_inputs.Facts]
open Cert.Pre_finite_inputs.Facts

theorem ofBool_eq_one (b : Bool) : BitVec.ofBool b = 1#1 ↔ b = true := by cases b <;> decide
theorem and1 : ∀ (a b : BitVec 1), IntOp.andi a b = 1#1 ↔ a = 1#1 ∧ b = 1#1 := by decide

instance : Subsingleton S_.Idx := ⟨fun a b => funext fun d => d.elim0⟩

/-- One all-reduced range test that came out 1: every entry is in `[0, 50000)`. -/
theorem range_of_reduce (idx : IVec S800000 32) (j : S_.Idx)
    (e : Host.reduce IntOp.andi
      (andi (cmpi .sge idx (broadcastInDim S800000 ![] bcast_S_S800000 (constantI S_ 32 0#32)))
        (cmpi .slt idx (broadcastInDim S800000 ![] bcast_S_S800000 (constantI S_ 32 50000#32))))
      (constantI S_ 1 1#1) reducesTo_S800000_S_d0 h_S_ j = 1#1) (i : S800000.Idx) :
    (0#32).sle (idx i) = true ∧ (idx i).slt (50000#32) = true := by
  have ei := Host.reduce_andi_all _ _ _ _ j e i
  obtain ⟨e0, e1⟩ := (and1 _ _).1 ei
  exact ⟨(ofBool_eq_one _).1 e0, (ofBool_eq_one _).1 e1⟩

/-- The last part of the printed precondition holding says both index vectors are in range. -/
theorem ranges_of_part3 {F : FTy → Type} [FloatOps F] (a10 a11 : IVec S800000 32) (v48 : IVec S_ 1)
    (h : fn_part3 (F := F) a10 a11 v48 (cmpi .sge a10 (broadcastInDim S800000 ![] bcast_S_S800000 (constantI S_ 32 0#32)))
      = fun _ => 1#1) :
    (∀ i, (0#32).sle (a10 i) = true ∧ (a10 i).slt (50000#32) = true)
    ∧ (∀ i, (0#32).sle (a11 i) = true ∧ (a11 i).slt (50000#32) = true) := by
  have e := congrFun h (fun d => d.elim0)
  unfold fn_part3 at e
  obtain ⟨e1, eV⟩ := (and1 _ _).1 e
  obtain ⟨-, eU⟩ := (and1 _ _).1 e1
  exact ⟨range_of_reduce a10 _ eU, range_of_reduce a11 _ eV⟩

end Decode

/-- Under the precondition both index inputs lie in `[0, 50000)` at every entry, on every core. -/
theorem inRange_of_pre [Cert.Pre_finite_inputs.Facts]
    (m : (ℓ : Idealize.ShloMosaic.Loc Cert.KernelIdeal.nD Cert.KernelIdeal.τ Cert.KernelIdeal.sig) → Idealize.ShloMosaic.Buf (Elt Ideal) ℓ)
    (h : Cert.Pre_KernelIdeal m) (c : Dev Cert.KernelIdeal.nD) :
    Cert.TakeMask.InRange (m ((c.tc : Thread Cert.KernelIdeal.nD Cert.KernelIdeal.τ).loc Cert.KernelIdeal.main_arg10))
    ∧ Cert.TakeMask.InRange (m ((c.tc : Thread Cert.KernelIdeal.nD Cert.KernelIdeal.τ).loc Cert.KernelIdeal.main_arg11)) := by
  have hc := h c
  have := ranges_of_part3 (F := Ideal) _ _ _ hc
  exact ⟨fun i => this.1 i, fun i => this.2 i⟩

end Cert.PreRange

end
-- ==== Proof.LinSpec.lean ====
/-
  The dense layer both programs apply, as one function of whole arrays.

  For a block of rows split in two column groups, `A : [M, d1]` and `B : [M, d2]`, two weight matrices
  `Wt : [d1, n]`, `Wb : [d2, n]` and a bias row `b : [1, n]`:

      lin2 A B Wt Wb b (i, j) = max (Σ_k A(i,k)·Wt(k,j) + Σ_k B(i,k)·Wb(k,j) + b(0,j)) 0

  over the extended reals. Row `i` of the result depends on row `i` of `A` and of `B` only, which is why a
  kernel may compute it one block of rows at a time.
-/
import Idealize.ShloMosaic.Lib.ValueIdx
import Idealize.ShloMosaic.PureOps.Ideal.Laws

noncomputable section

open scoped BigOperators

namespace Cert.Lin

open Idealize.ShloMosaic Idealize.ShloMosaic.ValueIdx

/-- `max (A·Wt + B·Wb + b) 0`, index by index, over the extended reals. -/
def lin2 {M d1 d2 n : ℕ} (A : (⟨2, ![M, d1]⟩ : Shape).Idx → EReal) (B : (⟨2, ![M, d2]⟩ : Shape).Idx → EReal)
    (Wt : (⟨2, ![d1, n]⟩ : Shape).Idx → EReal) (Wb : (⟨2, ![d2, n]⟩ : Shape).Idx → EReal)
    (b : (⟨2, ![1, n]⟩ : Shape).Idx → EReal) : (⟨2, ![M, n]⟩ : Shape).Idx → EReal :=
  fun i => max ((∑ k : Fin d1, A (ix2 ⟨(i 0).val, idx2_lt0 i⟩ k) * Wt (ix2 k ⟨(i 1).val, idx2_lt1 i⟩))
      + (∑ k : Fin d2, B (ix2 ⟨(i 0).val, idx2_lt0 i⟩ k) * Wb (ix2 k ⟨(i 1).val, idx2_lt1 i⟩))
      + b (ix2 ⟨0, Nat.one_pos⟩ ⟨(i 1).val, idx2_lt1 i⟩)) 0

end Cert.Lin

end
-- ==== Proof.LinLaw.lean ====
/-
  The dense layer, two spellings of one function.

  One program multiplies the two column groups by the two halves of the weight matrix and adds the products,
  `A·W[:d1] + B·W[d1:]`; the other joins the column groups first and multiplies once, `[A | B]·W`. A sum over the
  joined `d1 + d2` columns is the sum over the first `d1` plus the sum over the last `d2`: addition of extended
  reals is commutative and associative, so this needs no finiteness. The bias row is the same row read through a
  reshape on one side and two broadcasts on the other, and both sides end in a maximum with zero.
-/
import proofs.«405045_j8297876816047_1_alg».proof.KernelIdeal
import proofs.«405045_j8297876816047_1_alg».proof.ReferenceIdeal
import proofs.«405045_j8297876816047_1_alg».proof.Proof.LinSpec
import Idealize.ShloMosaic.Lib.Pipeline.Value
import Idealize.ShloMosaic.Lib.ValueIdx
import Idealize.ShloMosaic.PureOps.Ideal.Laws

noncomputable section

open scoped BigOperators

namespace Cert.LinLaw

open Idealize.ShloMosaic Idealize.ShloMosaic.ValueIdx

variable [Cert.KernelIdeal.Facts₀] [Cert.ReferenceIdeal.Facts₀]

/-- A sum over the joined columns is the sum over the first group plus the sum over the second. -/
private theorem sum_join {d1 d2 K : ℕ} (hK : d1 + d2 = K) (f : Fin K → EReal) :
    ∑ k : Fin K, f k
      = (∑ k : Fin d1, f ⟨k.val, by have := k.isLt; omega⟩)
        + ∑ k : Fin d2, f ⟨d1 + k.val, by have := k.isLt; omega⟩ := by
  subst hK
  rw [Fin.sum_univ_add]
  rfl

/-- The joined array read in its left part is the first piece. -/
private theorem cat_left {M d1 d2 K : ℕ} (A : FVec Ideal ⟨2, ![M, d1]⟩ .f32) (B : FVec Ideal ⟨2, ![M, d2]⟩ .f32)
    (h : Shape.Concatenates [⟨2, ![M, d1]⟩, ⟨2, ![M, d2]⟩] ⟨2, ![M, K]⟩ 1) (r : Fin M) (k : Fin d1) (hk : k.val < K) :
    concatenate ⟨2, ![M, K]⟩ 1 [⟨⟨2, ![M, d1]⟩, A⟩, ⟨⟨2, ![M, d2]⟩, B⟩] h (ix2 r ⟨k.val, hk⟩) = A (ix2 r k) :=
  concatenate_pair_apply_left 1 A B h (ix2 r ⟨k.val, hk⟩) rfl (ix2 r k)
    (fun b => match b with | ⟨0, _⟩ => rfl | ⟨1, _⟩ => rfl)

/-- The joined array read in its right part is the second piece, the column moved back by the first piece's width. -/
private theorem cat_right {M d1 d2 K : ℕ} (A : FVec Ideal ⟨2, ![M, d1]⟩ .f32) (B : FVec Ideal ⟨2, ![M, d2]⟩ .f32)
    (h : Shape.Concatenates [⟨2, ![M, d1]⟩, ⟨2, ![M, d2]⟩] ⟨2, ![M, K]⟩ 1) (r : Fin M) (k : Fin d2) (hk : d1 + k.val < K) :
    concatenate ⟨2, ![M, K]⟩ 1 [⟨⟨2, ![M, d1]⟩, A⟩, ⟨⟨2, ![M, d2]⟩, B⟩] h (ix2 r ⟨d1 + k.val, hk⟩) = B (ix2 r k) :=
  concatenate_pair_apply_right 1 A B h (ix2 r ⟨d1 + k.val, hk⟩) rfl rfl (ix2 r k)
    (fun b hb => match b, hb with | ⟨0, _⟩, _ => rfl | ⟨1, _⟩, hb => absurd rfl hb)
    (Nat.add_comm _ _)

/-- The top rows of the weight matrix. -/
private theorem slice_top {d1 K : ℕ} (W : FVec Ideal ⟨2, ![K, 128]⟩ .f32)
    (h : (⟨2, ![K, 128]⟩ : Shape).Slices ![0, 0] ⟨2, ![d1, 128]⟩) (k : Fin d1) (c : Fin 128) (hk : k.val < K) :
    extractStridedSlice ⟨2, ![d1, 128]⟩ ![0, 0] W h (ix2 k c) = W (ix2 ⟨k.val, hk⟩ c) :=
  extractStridedSlice_apply ![0, 0] W h (ix2 k c) (ix2 ⟨k.val, hk⟩ c)
    (fun a => match a with | ⟨0, _⟩ => (Nat.zero_add _).symm | ⟨1, _⟩ => (Nat.zero_add _).symm)

/-- The bottom rows of the weight matrix, below the first `d1`. -/
private theorem slice_bot {d1 d2 K : ℕ} (W : FVec Ideal ⟨2, ![K, 128]⟩ .f32)
    (h : (⟨2, ![K, 128]⟩ : Shape).Slices ![d1, 0] ⟨2, ![d2, 128]⟩) (k : Fin d2) (c : Fin 128) (hk : d1 + k.val < K) :
    extractStridedSlice ⟨2, ![d2, 128]⟩ ![d1, 0] W h (ix2 k c) = W (ix2 ⟨d1 + k.val, hk⟩ c) :=
  extractStridedSlice_apply ![d1, 0] W h (ix2 k c) (ix2 ⟨d1 + k.val, hk⟩ c)
    (fun a => match a with | ⟨0, _⟩ => rfl | ⟨1, _⟩ => (Nat.zero_add _).symm)

/-- The bias row seen as a one-row matrix. -/
private theorem bias_left (bias : FVec Ideal ⟨1, ![128]⟩ .f32) (h : (⟨1, ![128]⟩ : Shape).ShapeCasts ⟨2, ![1, 128]⟩) (c : Fin 128) :
    shapeCast ⟨2, ![1, 128]⟩ bias h (ix2 ⟨0, Nat.one_pos⟩ c) = bias (ix1 c) :=
  shapeCast_apply bias h (ix2 ⟨0, Nat.one_pos⟩ c) (ix1 c) (by
    rw [Shape.rowMajor_val_one, Shape.rowMajor_val_two]
    show c.val = 0 * 128 + c.val
    omega)

/-- The bias row repeated down every row. -/
private theorem bias_right {M : ℕ} (bias : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1]) (i : (⟨2, ![M, 128]⟩ : Shape).Idx) :
    broadcastInDim ⟨2, ![M, 128]⟩ ![0, 1] h2 (broadcastInDim ⟨2, ![1, 128]⟩ ![1] h1 bias) i
      = bias (ix1 ⟨(i 1).val, idx2_lt1 i⟩) :=
  (broadcastInDim_apply ![0, 1] h2 _ i (ix2 ⟨0, Nat.one_pos⟩ ⟨(i 1).val, idx2_lt1 i⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans
  (broadcastInDim_apply ![1] h1 bias _ (ix1 ⟨(i 1).val, idx2_lt1 i⟩) (fun a => match a with
    | ⟨0, _⟩ => by show (i 1).val = if (128 : Nat) = 1 then 0 else (i 1).val; rw [if_neg (by decide)]))

/-- The zero everything is compared with. -/
private theorem zero_read {M : ℕ} (h0 : (⟨0, ![]⟩ : Shape).BroadcastsInDim ⟨2, ![M, 128]⟩ ![]) (i : (⟨2, ![M, 128]⟩ : Shape).Idx) :
    broadcastInDim ⟨2, ![M, 128]⟩ ![] h0 (constant (F := Ideal) ⟨0, ![]⟩ .f32 0x00000000#32) i = 0 :=
  by
  refine (broadcastInDim_apply (s := ⟨0, ![]⟩) ![] h0 (constant (F := Ideal) ⟨0, ![]⟩ .f32 0x00000000#32) i
    (fun a => a.elim0) (fun a => a.elim0)).trans ?_
  rw [constant_apply]
  exact Ideal.ofBits_zero_f32

/-- The single matrix product read at an index: the sum over the joined columns. The four coordinate facts say which
    coordinate of the result index or of the contraction index each operand axis reads. -/
private theorem dot_read {M K : ℕ} (D : DotDims ⟨2, ![M, K]⟩ ⟨2, ![K, 128]⟩ ⟨2, ![M, 128]⟩)
    (hr : D.contr.rank = 1) (hs : D.contr.size ⟨0, by omega⟩ = K)
    (hl0 : ∀ (i : (⟨2, ![M, 128]⟩ : Shape).Idx) (q : D.contr.Idx), (D.lhsIdx i q 0).val = (i 0).val)
    (hl1 : ∀ (i : (⟨2, ![M, 128]⟩ : Shape).Idx) (q : D.contr.Idx), (D.lhsIdx i q 1).val = (q ⟨0, by omega⟩).val)
    (hr0 : ∀ (i : (⟨2, ![M, 128]⟩ : Shape).Idx) (q : D.contr.Idx), (D.rhsIdx i q 0).val = (q ⟨0, by omega⟩).val)
    (hr1 : ∀ (i : (⟨2, ![M, 128]⟩ : Shape).Idx) (q : D.contr.Idx), (D.rhsIdx i q 1).val = (i 1).val)
    (C : FVec Ideal ⟨2, ![M, K]⟩ .f32) (W : FVec Ideal ⟨2, ![K, 128]⟩ .f32) (i : (⟨2, ![M, 128]⟩ : Shape).Idx) :
    Host.dotGeneral (F := Ideal) D none C W i
      = ∑ k : Fin K, C (ix2 ⟨(i 0).val, idx2_lt0 i⟩ k) * W (ix2 k ⟨(i 1).val, idx2_lt1 i⟩) := by
  simp only [Host.dotGeneral]
  rw [Ideal.dotGeneral_apply, ← Equiv.sum_comp (ValueIdx.contrEquiv1 D K hr hs).symm]
  refine Finset.sum_congr rfl fun k _ => ?_
  have hk := ValueIdx.contrEquiv1_symm_val D K hr hs k
  have el : D.lhsIdx i ((ValueIdx.contrEquiv1 D K hr hs).symm k) = ix2 ⟨(i 0).val, idx2_lt0 i⟩ k :=
    funext fun a => Fin.ext (by
      match a with
      | ⟨0, _⟩ => exact hl0 _ _
      | ⟨1, _⟩ => exact (hl1 _ _).trans hk)
  have er : D.rhsIdx i ((ValueIdx.contrEquiv1 D K hr hs).symm k) = ix2 k ⟨(i 1).val, idx2_lt1 i⟩ :=
    funext fun a => Fin.ext (by
      match a with
      | ⟨0, _⟩ => exact (hr0 _ _).trans hk
      | ⟨1, _⟩ => exact hr1 _ _)
  rw [el, er]

/-- The dense layer: multiplying the two column groups by the two row blocks of the weight matrix and adding is
    multiplying the joined columns by the whole matrix. -/
private theorem lin2_joined {M d1 d2 K : ℕ} (hK : d1 + d2 = K)
    (A : FVec Ideal ⟨2, ![M, d1]⟩ .f32) (B : FVec Ideal ⟨2, ![M, d2]⟩ .f32)
    (W : FVec Ideal ⟨2, ![K, 128]⟩ .f32) (bias : FVec Ideal ⟨1, ![128]⟩ .f32)
    (hs1 : (⟨2, ![K, 128]⟩ : Shape).Slices ![0, 0] ⟨2, ![d1, 128]⟩)
    (hs2 : (⟨2, ![K, 128]⟩ : Shape).Slices ![d1, 0] ⟨2, ![d2, 128]⟩)
    (hsc : (⟨1, ![128]⟩ : Shape).ShapeCasts ⟨2, ![1, 128]⟩)
    (D : DotDims ⟨2, ![M, K]⟩ ⟨2, ![K, 128]⟩ ⟨2, ![M, 128]⟩)
    (hr : D.contr.rank = 1) (hs : D.contr.size ⟨0, by omega⟩ = K)
    (hl0 : ∀ (i : (⟨2, ![M, 128]⟩ : Shape).Idx) (q : D.contr.Idx), (D.lhsIdx i q 0).val = (i 0).val)
    (hl1 : ∀ (i : (⟨2, ![M, 128]⟩ : Shape).Idx) (q : D.contr.Idx), (D.lhsIdx i q 1).val = (q ⟨0, by omega⟩).val)
    (hr0 : ∀ (i : (⟨2, ![M, 128]⟩ : Shape).Idx) (q : D.contr.Idx), (D.rhsIdx i q 0).val = (q ⟨0, by omega⟩).val)
    (hr1 : ∀ (i : (⟨2, ![M, 128]⟩ : Shape).Idx) (q : D.contr.Idx), (D.rhsIdx i q 1).val = (i 1).val)
    (hc : Shape.Concatenates [⟨2, ![M, d1]⟩, ⟨2, ![M, d2]⟩] ⟨2, ![M, K]⟩ 1)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![]) :
    Cert.Lin.lin2 (M := M) (d1 := d1) (d2 := d2) (n := 128) A B
        (extractStridedSlice ⟨2, ![d1, 128]⟩ ![0, 0] W hs1)
        (extractStridedSlice ⟨2, ![d2, 128]⟩ ![d1, 0] W hs2)
        (shapeCast ⟨2, ![1, 128]⟩ bias hsc)
      = maximumf
          (addf
            (Host.dotGeneral D none
              (concatenate ⟨2, ![M, K]⟩ 1 [⟨⟨2, ![M, d1]⟩, A⟩, ⟨⟨2, ![M, d2]⟩, B⟩] hc) W)
            (broadcastInDim ⟨2, ![M, 128]⟩ ![0, 1] h2 (broadcastInDim ⟨2, ![1, 128]⟩ ![1] h1 bias)))
          (broadcastInDim ⟨2, ![M, 128]⟩ ![] h0 (constant (F := Ideal) ⟨0, ![]⟩ .f32 0x00000000#32)) := by
  funext i
  unfold Cert.Lin.lin2
  rw [maximumf_apply, addf_apply, zero_read h0 i, bias_right bias h1 h2 i,
    dot_read D hr hs hl0 hl1 hr0 hr1 _ W i, bias_left bias hsc ⟨(i 1).val, idx2_lt1 i⟩,
    sum_join hK]
  refine congrArg₂ max (congrArg₂ (· + ·) (congrArg₂ (· + ·) ?_ ?_) rfl) rfl
  · refine Finset.sum_congr rfl fun k _ => ?_
    exact congrArg₂ (· * ·) (cat_left A B hc _ k _).symm (slice_top W hs1 k _ _)
  · refine Finset.sum_congr rfl fun k _ => ?_
    exact congrArg₂ (· * ·) (cat_right A B hc _ k _).symm (slice_bot W hs2 k _ _)

/-! The [50000, 192] by [192, 128] product: the left operand's row is the result's row and its column the contraction position; the right operand's row is the contraction position and its column the result's column. -/

private theorem n1_l0 (i : Cert.ReferenceIdeal.S50000x128.Idx) (q : Cert.ReferenceIdeal.dot_S50000x192_S192x128_S50000x128_1_0_0_1_n_n.contr.Idx) :
    (Cert.ReferenceIdeal.dot_S50000x192_S192x128_S50000x128_1_0_0_1_n_n.lhsIdx i q 0).val = (i 0).val := by
  unfold DotDims.lhsIdx
  rw [dif_neg (show ¬(0 : Fin Cert.ReferenceIdeal.S50000x192.rank) ∈ Cert.ReferenceIdeal.dot_S50000x192_S192x128_S50000x128_1_0_0_1_n_n.lhsBatch by
      show ¬(0 : Fin 2) ∈ ([] : List (Fin 2)); simp),
    dif_pos (show (0 : Fin Cert.ReferenceIdeal.S50000x192.rank) ∈ Cert.ReferenceIdeal.dot_S50000x192_S192x128_S50000x128_1_0_0_1_n_n.lhsNonContracting by
      show (0 : Fin 2) ∈ ([0] : List (Fin 2)); simp)]
  rfl
private theorem n1_l1 (i : Cert.ReferenceIdeal.S50000x128.Idx) (q : Cert.ReferenceIdeal.dot_S50000x192_S192x128_S50000x128_1_0_0_1_n_n.contr.Idx) :
    (Cert.ReferenceIdeal.dot_S50000x192_S192x128_S50000x128_1_0_0_1_n_n.lhsIdx i q 1).val = (q ⟨0, Nat.one_pos⟩).val :=
  Cert.ReferenceIdeal.dot_S50000x192_S192x128_S50000x128_1_0_0_1_n_n.lhsIdx_val_of_single rfl i q
private theorem n1_r0 (i : Cert.ReferenceIdeal.S50000x128.Idx) (q : Cert.ReferenceIdeal.dot_S50000x192_S192x128_S50000x128_1_0_0_1_n_n.contr.Idx) :
    (Cert.ReferenceIdeal.dot_S50000x192_S192x128_S50000x128_1_0_0_1_n_n.rhsIdx i q 0).val = (q ⟨0, Nat.one_pos⟩).val :=
  Cert.ReferenceIdeal.dot_S50000x192_S192x128_S50000x128_1_0_0_1_n_n.rhsIdx_val_of_single rfl i q
private theorem n1_r1 (i : Cert.ReferenceIdeal.S50000x128.Idx) (q : Cert.ReferenceIdeal.dot_S50000x192_S192x128_S50000x128_1_0_0_1_n_n.contr.Idx) :
    (Cert.ReferenceIdeal.dot_S50000x192_S192x128_S50000x128_1_0_0_1_n_n.rhsIdx i q 1).val = (i 1).val := by
  unfold DotDims.rhsIdx
  rw [dif_neg (show ¬(1 : Fin Cert.ReferenceIdeal.S192x128.rank) ∈ Cert.ReferenceIdeal.dot_S50000x192_S192x128_S50000x128_1_0_0_1_n_n.rhsBatch by
      show ¬(1 : Fin 2) ∈ ([] : List (Fin 2)); simp),
    dif_pos (show (1 : Fin Cert.ReferenceIdeal.S192x128.rank) ∈ Cert.ReferenceIdeal.dot_S50000x192_S192x128_S50000x128_1_0_0_1_n_n.rhsNonContracting by
      show (1 : Fin 2) ∈ ([1] : List (Fin 2)); simp)]
  rfl

/-! The same four facts for the [800000, 256] by [256, 128] product. -/

private theorem ed_l0 (i : Cert.ReferenceIdeal.S800000x128.Idx) (q : Cert.ReferenceIdeal.dot_S800000x256_S256x128_S800000x128_1_0_0_1_n_n.contr.Idx) :
    (Cert.ReferenceIdeal.dot_S800000x256_S256x128_S800000x128_1_0_0_1_n_n.lhsIdx i q 0).val = (i 0).val := by
  unfold DotDims.lhsIdx
  rw [dif_neg (show ¬(0 : Fin Cert.ReferenceIdeal.S800000x256.rank) ∈ Cert.ReferenceIdeal.dot_S800000x256_S256x128_S800000x128_1_0_0_1_n_n.lhsBatch by
      show ¬(0 : Fin 2) ∈ ([] : List (Fin 2)); simp),
    dif_pos (show (0 : Fin Cert.ReferenceIdeal.S800000x256.rank) ∈ Cert.ReferenceIdeal.dot_S800000x256_S256x128_S800000x128_1_0_0_1_n_n.lhsNonContracting by
      show (0 : Fin 2) ∈ ([0] : List (Fin 2)); simp)]
  rfl
private theorem ed_l1 (i : Cert.ReferenceIdeal.S800000x128.Idx) (q : Cert.ReferenceIdeal.dot_S800000x256_S256x128_S800000x128_1_0_0_1_n_n.contr.Idx) :
    (Cert.ReferenceIdeal.dot_S800000x256_S256x128_S800000x128_1_0_0_1_n_n.lhsIdx i q 1).val = (q ⟨0, Nat.one_pos⟩).val :=
  Cert.ReferenceIdeal.dot_S800000x256_S256x128_S800000x128_1_0_0_1_n_n.lhsIdx_val_of_single rfl i q
private theorem ed_r0 (i : Cert.ReferenceIdeal.S800000x128.Idx) (q : Cert.ReferenceIdeal.dot_S800000x256_S256x128_S800000x128_1_0_0_1_n_n.contr.Idx) :
    (Cert.ReferenceIdeal.dot_S800000x256_S256x128_S800000x128_1_0_0_1_n_n.rhsIdx i q 0).val = (q ⟨0, Nat.one_pos⟩).val :=
  Cert.ReferenceIdeal.dot_S800000x256_S256x128_S800000x128_1_0_0_1_n_n.rhsIdx_val_of_single rfl i q
private theorem ed_r1 (i : Cert.ReferenceIdeal.S800000x128.Idx) (q : Cert.ReferenceIdeal.dot_S800000x256_S256x128_S800000x128_1_0_0_1_n_n.contr.Idx) :
    (Cert.ReferenceIdeal.dot_S800000x256_S256x128_S800000x128_1_0_0_1_n_n.rhsIdx i q 1).val = (i 1).val := by
  unfold DotDims.rhsIdx
  rw [dif_neg (show ¬(1 : Fin Cert.ReferenceIdeal.S256x128.rank) ∈ Cert.ReferenceIdeal.dot_S800000x256_S256x128_S800000x128_1_0_0_1_n_n.rhsBatch by
      show ¬(1 : Fin 2) ∈ ([] : List (Fin 2)); simp),
    dif_pos (show (1 : Fin Cert.ReferenceIdeal.S256x128.rank) ∈ Cert.ReferenceIdeal.dot_S800000x256_S256x128_S800000x128_1_0_0_1_n_n.rhsNonContracting by
      show (1 : Fin 2) ∈ ([1] : List (Fin 2)); simp)]
  rfl

/-! The same four facts for the [50000, 384] by [384, 128] product. -/

private theorem n2_l0 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 0).val = (i 0).val := by
  unfold DotDims.lhsIdx
  rw [dif_neg (show ¬(0 : Fin Cert.ReferenceIdeal.S50000x384.rank) ∈ Cert.ReferenceIdeal.dot_S50000x384_S384x128_S50000x128_1_0_0_1_n_n.lhsBatch by
      show ¬(0 : Fin 2) ∈ ([] : List (Fin 2)); simp),
    dif_pos (show (0 : Fin Cert.ReferenceIdeal.S50000x384.rank) ∈ Cert.ReferenceIdeal.dot_S50000x384_S384x128_S50000x128_1_0_0_1_n_n.lhsNonContracting by
      show (0 : Fin 2) ∈ ([0] : List (Fin 2)); simp)]
  rfl
private theorem n2_l1 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.lhsIdx i q 1).val = (q ⟨0, Nat.one_pos⟩).val :=
  Cert.ReferenceIdeal.dot_S50000x384_S384x128_S50000x128_1_0_0_1_n_n.lhsIdx_val_of_single rfl i q
private theorem n2_r0 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 0).val = (q ⟨0, Nat.one_pos⟩).val :=
  Cert.ReferenceIdeal.dot_S50000x384_S384x128_S50000x128_1_0_0_1_n_n.rhsIdx_val_of_single rfl i q
private theorem n2_r1 (i : Cert.ReferenceIdeal.S50000x128.Idx) (q : Cert.ReferenceIdeal.dot_S50000x384_S384x128_S50000x128_1_0_0_1_n_n.contr.Idx) :
    (Cert.ReferenceIdeal.dot_S50000x384_S384x128_S50000x128_1_0_0_1_n_n.rhsIdx i q 1).val = (i 1).val := by
  unfold DotDims.rhsIdx
  rw [dif_neg (show ¬(1 : Fin Cert.ReferenceIdeal.S384x128.rank) ∈ Cert.ReferenceIdeal.dot_S50000x384_S384x128_S50000x128_1_0_0_1_n_n.rhsBatch by
      show ¬(1 : Fin 2) ∈ ([] : List (Fin 2)); simp),
    dif_pos (show (1 : Fin Cert.ReferenceIdeal.S384x128.rank) ∈ Cert.ReferenceIdeal.dot_S50000x384_S384x128_S50000x128_1_0_0_1_n_n.rhsNonContracting by
      show (1 : Fin 2) ∈ ([1] : List (Fin 2)); simp)]
  rfl

/-- First layer, nodes: 64 own columns and 128 aggregated columns against a [192, 128] weight. -/
theorem law_node1 (A : FVec Ideal Cert.KernelIdeal.S50000x64 .f32) (B : FVec Ideal Cert.KernelIdeal.S50000x128 .f32) (W : FVec Ideal Cert.KernelIdeal.S192x128 .f32)
    (bias : FVec Ideal Cert.KernelIdeal.S128 .f32) :
    Cert.Lin.lin2 (M := 50000) (d1 := 64) (d2 := 128) (n := 128) A B
        (extractStridedSlice Cert.KernelIdeal.S64x128 ![0, 0] W Cert.KernelIdeal.Facts₀.slices_S192x128_S64x128_0_0)
        (extractStridedSlice Cert.KernelIdeal.S128x128 ![64, 0] W Cert.KernelIdeal.Facts₀.slices_S192x128_S128x128_64_0)
        (shapeCast Cert.KernelIdeal.S1x128 bias Cert.KernelIdeal.Facts₀.shapeCasts_S128_S1x128)
      = maximumf
          (addf
            (Host.dotGeneral Cert.ReferenceIdeal.dot_S50000x192_S192x128_S50000x128_1_0_0_1_n_n none
              (concatenate Cert.ReferenceIdeal.S50000x192 1 [⟨Cert.ReferenceIdeal.S50000x64, A⟩, ⟨Cert.ReferenceIdeal.S50000x128, B⟩] Cert.ReferenceIdeal.Facts₀.concatenates_S50000x64_S50000x128_S50000x192_d1) W)
            (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 bias)))
          (broadcastInDim Cert.ReferenceIdeal.S50000x128 ![] Cert.ReferenceIdeal.Facts₀.bcast_S_S50000x128 (constant (F := Ideal) Cert.ReferenceIdeal.S_ .f32 0x00000000#32)) :=
  lin2_joined (M := 50000) (d1 := 64) (d2 := 128) (K := 192) rfl A B W bias
    Cert.KernelIdeal.Facts₀.slices_S192x128_S64x128_0_0 Cert.KernelIdeal.Facts₀.slices_S192x128_S128x128_64_0 Cert.KernelIdeal.Facts₀.shapeCasts_S128_S1x128
    Cert.ReferenceIdeal.dot_S50000x192_S192x128_S50000x128_1_0_0_1_n_n rfl rfl n1_l0 n1_l1 n1_r0 n1_r1
    Cert.ReferenceIdeal.Facts₀.concatenates_S50000x64_S50000x128_S50000x192_d1
    Cert.ReferenceIdeal.Facts₀.bcast_S128_S1x128_1 Cert.ReferenceIdeal.Facts₀.bcast_S1x128_S50000x128_0_1 Cert.ReferenceIdeal.Facts₀.bcast_S_S50000x128

/-- Either layer, edges: the two endpoint rows, 128 columns each, against a [256, 128] weight. -/
theorem law_edge (A : FVec Ideal Cert.KernelIdeal.S800000x128 .f32) (B : FVec Ideal Cert.KernelIdeal.S800000x128 .f32) (W : FVec Ideal Cert.KernelIdeal.S256x128 .f32)
    (bias : FVec Ideal Cert.KernelIdeal.S128 .f32) :
    Cert.Lin.lin2 (M := 800000) (d1 := 128) (d2 := 128) (n := 128) A B
        (extractStridedSlice Cert.KernelIdeal.S128x128 ![0, 0] W Cert.KernelIdeal.Facts₀.slices_S256x128_S128x128_0_0)
        (extractStridedSlice Cert.KernelIdeal.S128x128 ![128, 0] W Cert.KernelIdeal.Facts₀.slices_S256x128_S128x128_128_0)
        (shapeCast Cert.KernelIdeal.S1x128 bias Cert.KernelIdeal.Facts₀.shapeCasts_S128_S1x128)
      = maximumf
          (addf
            (Host.dotGeneral Cert.ReferenceIdeal.dot_S800000x256_S256x128_S800000x128_1_0_0_1_n_n none
              (concatenate Cert.ReferenceIdeal.S800000x256 1 [⟨Cert.ReferenceIdeal.S800000x128, A⟩, ⟨Cert.ReferenceIdeal.S800000x128, B⟩] Cert.ReferenceIdeal.Facts₀.concatenates_S800000x128_S800000x128_S800000x256_d1) W)
            (broadcastInDim Cert.ReferenceIdeal.S800000x128 ![0, 1] Cert.ReferenceIdeal.Facts₀.bcast_S1x128_S800000x128_0_1 (broadcastInDim Cert.ReferenceIdeal.S1x128 ![1] Cert.ReferenceIdeal.Facts₀.bcast_S128_S1x128_1 bias)))
          (broadcastInDim Cert.ReferenceIdeal.S800000x128 ![] Cert.ReferenceIdeal.Facts₀.bcast_S_S800000x128 (constant (F := Ideal) Cert.ReferenceIdeal.S_ .f32 0x00000000#32)) :=
  lin2_joined (M := 800000) (d1 := 128) (d2 := 128) (K := 256) rfl A B W bias
    Cert.KernelIdeal.Facts₀.slices_S256x128_S128x128_0_0 Cert.KernelIdeal.Facts₀.slices_S256x128_S128x128_128_0 Cert.KernelIdeal.Facts₀.shapeCasts_S128_S1x128
    Cert.ReferenceIdeal.dot_S800000x256_S256x128_S800000x128_1_0_0_1_n_n rfl rfl ed_l0 ed_l1 ed_r0 ed_r1
    Cert.ReferenceIdeal.Facts₀.concatenates_S800000x128_S800000x128_S800000x256_d1
    Cert.ReferenceIdeal.Facts₀.bcast_S128_S1x128_1 Cert.ReferenceIdeal.Facts₀.bcast_S1x128_S800000x128_0_1 Cert.ReferenceIdeal.Facts₀.bcast_S_S800000x128

/-- Second layer, nodes: 128 own columns and 256 aggregated columns against a [384, 128] weight. -/
theorem law_node2 (A : FVec Ideal Cert.KernelIdeal.S50000x128 .f32) (B : FVec Ideal Cert.KernelIdeal.S50000x256 .f32) (W : FVec Ideal Cert.KernelIdeal.S384x128 .f32)
    (bias : FVec Ideal Cert.KernelIdeal.S128 .f32) :
    Cert.Lin.lin2 (M := 50000) (d1 := 128) (d2 := 256) (n := 128) A B
        (extractStridedSlice Cert.KernelIdeal.S128x128 ![0, 0] W Cert.KernelIdeal.Facts₀.slices_S384x128_S128x128_0_0)
        (extractStridedSlice Cert.KernelIdeal.S256x128 ![128, 0] W Cert.KernelIdeal.Facts₀.slices_S384x128_S256x128_128_0)
        (shapeCast Cert.KernelIdeal.S1x128 bias Cert.KernelIdeal.Facts₀.shapeCasts_S128_S1x128)
      = maximumf
          (addf
            (Host.dotGeneral Cert.ReferenceIdeal.dot_S50000x384_S384x128_S50000x128_1_0_0_1_n_n none
              (concatenate Cert.ReferenceIdeal.S50000x384 1 [⟨Cert.ReferenceIdeal.S50000x128, A⟩, ⟨Cert.ReferenceIdeal.S50000x256, B⟩] Cert.ReferenceIdeal.Facts₀.concatenates_S50000x128_S50000x256_S50000x384_d1) W)
            (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 bias)))
          (broadcastInDim Cert.ReferenceIdeal.S50000x128 ![] Cert.ReferenceIdeal.Facts₀.bcast_S_S50000x128 (constant (F := Ideal) Cert.ReferenceIdeal.S_ .f32 0x00000000#32)) :=
  lin2_joined (M := 50000) (d1 := 128) (d2 := 256) (K := 384) rfl A B W bias
    Cert.KernelIdeal.Facts₀.slices_S384x128_S128x128_0_0 Cert.KernelIdeal.Facts₀.slices_S384x128_S256x128_128_0 Cert.KernelIdeal.Facts₀.shapeCasts_S128_S1x128
    Cert.ReferenceIdeal.dot_S50000x384_S384x128_S50000x128_1_0_0_1_n_n rfl rfl n2_l0 n2_l1 n2_r0 n2_r1
    Cert.ReferenceIdeal.Facts₀.concatenates_S50000x128_S50000x256_S50000x384_d1
    Cert.ReferenceIdeal.Facts₀.bcast_S128_S1x128_1 Cert.ReferenceIdeal.Facts₀.bcast_S1x128_S50000x128_0_1 Cert.ReferenceIdeal.Facts₀.bcast_S_S50000x128

end Cert.LinLaw

end
-- ==== Proof.Region3.lean ====
import proofs.«405045_j8297876816047_1_alg».proof.Proof.Gen.KernelIdeal.Frame
import proofs.«405045_j8297876816047_1_alg».proof.Proof.LinSpec
import Idealize.ShloMosaic.Lib.Pipeline.Value
import Idealize.ShloMosaic.Lib.ValueIdx
import Idealize.ShloMosaic.PureOps.Ideal.Laws

/-! One launch of the dense-layer body over 200 blocks of 4000 rows, read as a value.

  On a block the body computes the dense layer of the block: two [4000,128] by [128,128] products summed, the bias
  row added to every row, the maximum with 0 (`pay_eq`). The two row operands' blocks at grid point `t` are rows
  `4000·t … 4000·t + 3999` of their arrays; the weights' and the bias's blocks are the whole arrays. A row of the
  dense layer depends on that row of the row operands only (`lin2_rows`), so point `t` writes back its 4000 rows of
  the dense layer of the whole arrays (`flushed_eq`); 200 · 4000 = 800000, so the blocks cover the result (`covered`),
  which therefore ends holding the dense layer of the arrays the launch found. -/

noncomputable section
namespace Cert.KernelIdeal.RegionValue
open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

namespace Region3

/-! ## The product of a block of rows with a weight matrix, entry by entry -/

/-- The left operand of the contraction is read at the output's row … -/
theorem mm_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and at the summation index as its column; -/
theorem mm_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand at the summation index as its row … -/
theorem mm_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and at the output's column. -/
theorem mm_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product accumulated into zero: entry (r, c) is the sum over k of a(r,k)·w(k,c). -/
theorem mm_apply {φ₁ φ₂ : FTy} (a : FVec Ideal S4000x128 φ₁) (w : FVec Ideal S128x128 φ₂) (j : S4000x128.Idx) :
    matmul dot_S4000x128_S128x128_S4000x128_1_0_0_1_n_n none a w (constant (F := Ideal) S4000x128 .f32 0x00000000#32) j
      = ∑ k : Fin 128, a (ix2 ⟨(j 0).val, idx2_lt0 j⟩ k) * w (ix2 k ⟨(j 1).val, idx2_lt1 j⟩) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = ix2 ⟨(j 0).val, idx2_lt0 j⟩ k := funext fun a => Fin.ext (by
    match a with
    | ⟨0, _⟩ => exact mm_lhs_row _ _
    | ⟨1, _⟩ => exact (mm_lhs_col _ _).trans hk)
  have er : dot_S4000x128_S128x128_S4000x128_1_0_0_1_n_n.rhsIdx j ((ValueIdx.contrEquiv1 dot_S4000x128_S128x128_S4000x128_1_0_0_1_n_n 128 rfl rfl).symm k) = ix2 k ⟨(j 1).val, idx2_lt1 j⟩ := funext fun a => Fin.ext (by
    match a with
    | ⟨0, _⟩ => exact (mm_rhs_row _ _).trans hk
    | ⟨1, _⟩ => exact mm_rhs_col _ _)
  rw [el, er]

/-- The bias row broadcast down the 4000 rows reads the bias at the column. -/
theorem bias_apply {α : Type} (b : S1x128.Idx → α) (j : S4000x128.Idx) :
    broadcastTo S4000x128 b broadcasts_S1x128_S4000x128 j = b (ix2 ⟨0, Nat.one_pos⟩ ⟨(j 1).val, idx2_lt1 j⟩) := by
  refine broadcastTo_apply b broadcasts_S1x128_S4000x128 j _ fun a => ?_
  match a with
  | ⟨0, _⟩ => show 0 = if (1 : Nat) = 1 then 0 else _; rw [if_pos rfl]
  | ⟨1, _⟩ => show (j 1).val = if (128 : Nat) = 1 then 0 else (j 1).val; rw [if_neg (by decide)]

/-! ## The body on a block is the dense layer at block height -/

/-- What the body stores, from the five blocks it loads: the dense layer of those blocks. -/
theorem pay_eq (x0 x1 : Vec Ideal S4000x128 .f32) (x2 x3 : Vec Ideal S128x128 .f32) (x4 : Vec Ideal S1x128 .f32) :
    k3_pay1 (F := Ideal) x0 x1 x2 x3 x4
      = Cert.Lin.lin2 (M := 4000) (d1 := 128) (d2 := 128) (n := 128) x0 x1 x2 x3 x4 := by
  funext j
  unfold k3_pay1 Cert.Lin.lin2
  simp only [shapeCast_self]
  rw [maximumf_apply, addf_apply, addf_apply, broadcast_apply, bias_apply, mm_apply, mm_apply]
  simp only [truncf_apply]
  exact congrArg (max _) Ideal.ofBits_zero_f32

/-! ## A block of rows of the dense layer -/

/-- Row `r·4000 + p` of the dense layer of whole arrays is row `p` of the dense layer of the `r`-th 4000-row blocks
    of the two row operands (the weights and the bias are shared by every block): the layer's row depends on that row
    of the operands only. -/
theorem lin2_rows (A B : S800000x128.Idx → EReal) (Wt Wb : S128x128.Idx → EReal) (b : S1x128.Idx → EReal)
    (a' b' : S4000x128.Idx → EReal) (r : ℕ)
    (ha : ∀ (y : S4000x128.Idx) (k : S800000x128.Idx), (k 0).val = r * 4000 + (y 0).val → (k 1).val = (y 1).val → a' y = A k)
    (hb : ∀ (y : S4000x128.Idx) (k : S800000x128.Idx), (k 0).val = r * 4000 + (y 0).val → (k 1).val = (y 1).val → b' y = B k)
    (j : S4000x128.Idx) (i : S800000x128.Idx) (hi0 : (i 0).val = r * 4000 + (j 0).val) (hi1 : (i 1).val = (j 1).val) :
    Cert.Lin.lin2 (M := 4000) (d1 := 128) (d2 := 128) (n := 128) a' b' Wt Wb b j
      = Cert.Lin.lin2 (M := 800000) (d1 := 128) (d2 := 128) (n := 128) A B Wt Wb b i := by
  unfold Cert.Lin.lin2
  have e1 : (⟨(j 1).val, idx2_lt1 j⟩ : Fin 128) = ⟨(i 1).val, idx2_lt1 i⟩ := Fin.ext hi1.symm
  have sA : ∀ k : Fin 128, a' (ix2 ⟨(j 0).val, idx2_lt0 j⟩ k) = A (ix2 ⟨(i 0).val, idx2_lt0 i⟩ k) := fun k => ha _ _ hi0 rfl
  have sB : ∀ k : Fin 128, b' (ix2 ⟨(j 0).val, idx2_lt0 j⟩ k) = B (ix2 ⟨(i 0).val, idx2_lt0 i⟩ k) := fun k => hb _ _ hi0 rfl
  simp only [sA, sB, e1]

/-! ## The windows' blocks as parts of the arrays -/

theorem zero_offsets : (![0, 0] : Fin 2 → Nat) = fun _ => 0 := funext fun a => by fin_cases a <;> rfl

/-- Where each window's block sits at grid point `t`: the two row operands and the result move with the point, block
    `(t, 0)`; the weights and the bias stay at block `(0, 0)`. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

variable (V : (c : Dev nD) → (b : Ref sig .tc) → Buf (Elt Ideal) ((c : Thread nD τ).loc b)) (c : Dev nD)

/-- The first row operand's block at point `t` is rows `4000·t … 4000·t + 3999` of its array. -/
theorem rowsA_apply (t : Fin cfg3.N) (y : S4000x128.Idx) (k : S800000x128.Idx)
    (hk0 : (k 0).val = t.val * 4000 + (y 0).val) (hk1 : (k 1).val = (y 1).val) :
    (iblk3 V c 0 t : Vec Ideal S4000x128 .f32) y = (V c main_v42 : S800000x128.Idx → EReal) k := by
  obtain ⟨h00, h01, -⟩ := block_indices t
  unfold iblk3
  rw [View.read_apply]
  show V c main_v42 _ = V c main_v42 _
  congr 1
  funext a
  apply Fin.ext
  match a with
  | ⟨0, _⟩ => show win3_0.index t (0 : Fin 2) * 4000 + 1 * (y 0).val = (k 0).val; rw [h00, hk0]; omega
  | ⟨1, _⟩ => show win3_0.index t (1 : Fin 2) * 128 + 1 * (y 1).val = (k 1).val; rw [h01, hk1]; omega

/-- The second row operand's block at point `t` is the same rows of its array. -/
theorem rowsB_apply (t : Fin cfg3.N) (y : S4000x128.Idx) (k : S800000x128.Idx)
    (hk0 : (k 0).val = t.val * 4000 + (y 0).val) (hk1 : (k 1).val = (y 1).val) :
    (iblk3 V c 1 t : Vec Ideal S4000x128 .f32) y = (V c main_v43 : S800000x128.Idx → EReal) k := by
  obtain ⟨-, -, h10, h11, -⟩ := block_indices t
  unfold iblk3
  rw [View.read_apply]
  show V c main_v43 _ = V c main_v43 _
  congr 1
  funext a
  apply Fin.ext
  match a with
  | ⟨0, _⟩ => show win3_1.index t (0 : Fin 2) * 4000 + 1 * (y 0).val = (k 0).val; rw [h10, hk0]; omega
  | ⟨1, _⟩ => show win3_1.index t (1 : Fin 2) * 128 + 1 * (y 1).val = (k 1).val; rw [h11, hk1]; omega

/-- The first weight matrix's block is the matrix, at every point. -/
theorem weightsTop_eq (t : Fin cfg3.N) :
    (iblk3 V c 2 t : Vec Ideal S128x128 .f32) = (V c main_v44 : S128x128.Idx → EReal) := by
  obtain ⟨-, -, -, -, h20, h21, -⟩ := block_indices t
  funext y
  unfold iblk3
  rw [View.read_apply]
  show V c main_v44 _ = V c main_v44 y
  congr 1
  funext a
  apply Fin.ext
  match a with
  | ⟨0, _⟩ => show win3_2.index t (0 : Fin 2) * 128 + 1 * (y 0).val = (y 0).val; rw [h20]; omega
  | ⟨1, _⟩ => show win3_2.index t (1 : Fin 2) * 128 + 1 * (y 1).val = (y 1).val; rw [h21]; omega

/-- So is the second weight matrix's. -/
theorem weightsBottom_eq (t : Fin cfg3.N) :
    (iblk3 V c 3 t : Vec Ideal S128x128 .f32) = (V c main_v45 : S128x128.Idx → EReal) := by
  obtain ⟨-, -, -, -, -, -, h30, h31, -⟩ := block_indices t
  funext y
  unfold iblk3
  rw [View.read_apply]
  show V c main_v45 _ = V c main_v45 y
  congr 1
  funext a
  apply Fin.ext
  match a with
  | ⟨0, _⟩ => show win3_3.index t (0 : Fin 2) * 128 + 1 * (y 0).val = (y 0).val; rw [h30]; omega
  | ⟨1, _⟩ => show win3_3.index t (1 : Fin 2) * 128 + 1 * (y 1).val = (y 1).val; rw [h31]; omega

/-- And the bias row's block is the bias row. -/
theorem bias_eq (t : Fin cfg3.N) :
    (iblk3 V c 4 t : Vec Ideal S1x128 .f32) = (V c main_v46 : S1x128.Idx → EReal) := by
  obtain ⟨-, -, -, -, -, -, -, -, h40, h41, -⟩ := block_indices t
  funext y
  unfold iblk3
  rw [View.read_apply]
  show V c main_v46 _ = V c main_v46 y
  congr 1
  funext a
  apply Fin.ext
  match a with
  | ⟨0, _⟩ => show win3_4.index t (0 : Fin 2) * 1 + 1 * (y 0).val = (y 0).val; rw [h40]; omega
  | ⟨1, _⟩ => show win3_4.index t (1 : Fin 2) * 128 + 1 * (y 1).val = (y 1).val; rw [h41]; omega

/-! ## What a point writes back, and the whole result -/

/-- The dense layer of the five arrays as the region finds them. -/
abbrev layer : S800000x128.Idx → EReal :=
  Cert.Lin.lin2 (M := 800000) (d1 := 128) (d2 := 128) (n := 128)
    (V c main_v42) (V c main_v43) (V c main_v44) (V c main_v45) (V c main_v46)

/-- Point `t` writes back rows `4000·t … 4000·t + 3999` of the dense layer of the whole arrays. -/
theorem flushed_eq (t : Fin cfg3.N) :
    (dat3 (F := Ideal) V c).flushed 5 t = ((cfg3.win 5).blk t).view.read (Elt Ideal) (layer V c) := by
  show (cfg3.win 5).cut (grid3.coords t) ((dat3 V c).after 5 t) = _
  rw [after3_5]
  unfold out3_5
  rw [View.canon_unit_zero zero_offsets]
  simp only [View.ld_unit_zero (S := S4000x128) zero_offsets, View.ld_unit_zero (S := S128x128) zero_offsets,
    View.ld_unit_zero (S := S1x128) zero_offsets]
  rw [pay_eq, weightsTop_eq, weightsBottom_eq, bias_eq]
  obtain ⟨-, -, -, -, -, -, -, -, -, -, h50, h51⟩ := block_indices t
  funext j
  rw [View.read_apply]
  refine lin2_rows _ _ _ _ _ _ _ t.val (fun y k h0 h1 => rowsA_apply V c t y k h0 h1)
    (fun y k h0 h1 => rowsB_apply V c t y k h0 h1) j _ ?_ ?_
  · show win3_5.index t (0 : Fin 2) * 4000 + 1 * (j 0).val = t.val * 4000 + (j 0).val; rw [h50]; omega
  · show win3_5.index t (1 : Fin 2) * 128 + 1 * (j 1).val = (j 1).val; rw [h51]; omega

/-- An index of the result array is in point `t`'s block iff each coordinate is in the block's range on its axis. -/
theorem mem_block (t : Fin cfg3.N) (i : S800000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v47).slice (win3_5.rect t)).set ↔ _
  rw [View.set_slice_whole, Rect.mem_set_unit]
  exact Iff.rfl

/-- Every row of the result is some point's: row `r` is in the block of point `r / 4000`, as 800000 = 200 · 4000. -/
theorem covered (i : S800000x128.Idx) :
    ∃ t : Fin cfg3.N, (cfg3.win 5).flush t = true ∧ i ∈ ((cfg3.win 5).blk t).view.set := by
  have hi0 : (i 0).val < 800000 := idx2_lt0 i
  have hi1 : (i 1).val < 128 := idx2_lt1 i
  have ht : (i 0).val / 4000 < cfg3.N := lt_of_lt_of_eq (by omega : (i 0).val / 4000 < 200) N_3.symm
  obtain ⟨-, -, -, -, -, -, -, -, -, -, h50, h51⟩ := block_indices ⟨(i 0).val / 4000, ht⟩
  refine ⟨⟨(i 0).val / 4000, ht⟩, flush3_5 _, ?_⟩
  rw [mem_block]
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    rw [h50]; show (i 0).val / 4000 * 4000 ≤ (i 0).val ∧ (i 0).val < (i 0).val / 4000 * 4000 + 4000; omega
  | ⟨1, _⟩ =>
    show win3_5.index ⟨(i 0).val / 4000, ht⟩ (1 : Fin 2) * 128 ≤ (i 1).val ∧ (i 1).val < win3_5.index ⟨(i 0).val / 4000, ht⟩ (1 : Fin 2) * 128 + 128
    rw [h51]; omega

end Region3

/-- After the region's 200 points the result array holds the dense layer of the five arrays the region found. -/
theorem arr3 (V : (c : Dev nD) → (b : Ref sig .tc) → Buf (Elt Ideal) ((c : Thread nD τ).loc b)) (c : Dev nD) :
    (dat3 (F := Ideal) V c).arrAt 5 cfg3.N
      = Cert.Lin.lin2 (M := 800000) (d1 := 128) (d2 := 128) (n := 128)
          (V c main_v42) (V c main_v43) (V c main_v44) (V c main_v45) (V c main_v46) :=
  (dat3 (F := Ideal) V c).arrAt_eq_of_cover 5 (Region3.layer V c) (fun t _ => Region3.flushed_eq V c t) Region3.covered

end Cert.KernelIdeal.RegionValue
end
-- ==== Proof.Region2.lean ====
import proofs.«405045_j8297876816047_1_alg».proof.Proof.Gen.KernelIdeal.Frame
import proofs.«405045_j8297876816047_1_alg».proof.Proof.LinSpec
import Idealize.ShloMosaic.Lib.Pipeline.Value
import Idealize.ShloMosaic.Lib.ValueIdx
import Idealize.ShloMosaic.PureOps.Ideal.Laws

noncomputable section

open scoped BigOperators

namespace Cert.KernelIdeal.RegionValue.Region2
open Cert.KernelIdeal Cert.KernelIdeal.Gen
open Idealize.ShloMosaic Idealize.ShloMosaic.TcCoe Idealize.SL.Sem
open Idealize.ShloMosaic.ValueIdx

/-! ## The two products of the body, index by index -/

/-- In the product of a row block of the left features with the top weights, the left operand is read on the
    output's row … -/
theorem lhsA_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and on the summation index's column; -/
theorem lhsA_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the weights are read on the summation index's row … -/
theorem rhsA_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and on the output's column. -/
theorem rhsA_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator of a [2000,128] block with a [128,128] matrix, at an index: the sum over the
    128 shared coordinates of row entry times column entry. -/
theorem mulA_apply (a : FVec Ideal S2000x128 .bf16) (w : FVec Ideal S128x128 .bf16) (i : S2000x128.Idx) :
    matmul dot_S2000x128_S128x128_S2000x128_1_0_0_1_n_n none a w (constant (F := Ideal) S2000x128 .f32 0x00000000#32) i
      = ∑ k : Fin 128, a (ix2 ⟨(i 0).val, idx2_lt0 i⟩ k) * w (ix2 k ⟨(i 1).val, idx2_lt1 i⟩) := by
  refine (Ideal.matmul_constant_zero_apply _ none a w i).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx i ((ValueIdx.contrEquiv1 dot_S2000x128_S128x128_S2000x128_1_0_0_1_n_n 128 rfl rfl).symm k) = ix2 ⟨(i 0).val, idx2_lt0 i⟩ k := funext fun a => Fin.ext (by
    match a with
    | ⟨0, _⟩ => exact lhsA_0 _ _
    | ⟨1, _⟩ => exact (lhsA_1 _ _).trans hk)
  have er : dot_S2000x128_S128x128_S2000x128_1_0_0_1_n_n.rhsIdx i ((ValueIdx.contrEquiv1 dot_S2000x128_S128x128_S2000x128_1_0_0_1_n_n 128 rfl rfl).symm k) = ix2 k ⟨(i 1).val, idx2_lt1 i⟩ := funext fun a => Fin.ext (by
    match a with
    | ⟨0, _⟩ => exact (rhsA_0 _ _).trans hk
    | ⟨1, _⟩ => exact rhsA_1 _ _)
  rw [el, er]

/-- In the product of a row block of the right features with the bottom weights, the left operand is read on the
    output's row … -/
theorem lhsB_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and on the summation index's column; -/
theorem lhsB_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- the weights are read on the summation index's row … -/
theorem rhsB_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- … and on the output's column. -/
theorem rhsB_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product into a zero accumulator of a [2000,256] block with a [256,128] matrix, at an index: the sum over the
    256 shared coordinates of row entry times column entry. -/
theorem mulB_apply (a : FVec Ideal S2000x256 .bf16) (w : FVec Ideal S256x128 .bf16) (i : S2000x128.Idx) :
    matmul dot_S2000x256_S256x128_S2000x128_1_0_0_1_n_n none a w (constant (F := Ideal) S2000x128 .f32 0x00000000#32) i
      = ∑ k : Fin 256, a (ix2 ⟨(i 0).val, idx2_lt0 i⟩ k) * w (ix2 k ⟨(i 1).val, idx2_lt1 i⟩) := by
  refine (Ideal.matmul_constant_zero_apply _ none a w i).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx i ((ValueIdx.contrEquiv1 dot_S2000x256_S256x128_S2000x128_1_0_0_1_n_n 256 rfl rfl).symm k) = ix2 ⟨(i 0).val, idx2_lt0 i⟩ k := funext fun a => Fin.ext (by
    match a with
    | ⟨0, _⟩ => exact lhsB_0 _ _
    | ⟨1, _⟩ => exact (lhsB_1 _ _).trans hk)
  have er : dot_S2000x256_S256x128_S2000x128_1_0_0_1_n_n.rhsIdx i ((ValueIdx.contrEquiv1 dot_S2000x256_S256x128_S2000x128_1_0_0_1_n_n 256 rfl rfl).symm k) = ix2 k ⟨(i 1).val, idx2_lt1 i⟩ := funext fun a => Fin.ext (by
    match a with
    | ⟨0, _⟩ => exact (rhsB_0 _ _).trans hk
    | ⟨1, _⟩ => exact rhsB_1 _ _)
  rw [el, er]

/-- The bias row spread over the 2000 rows of a block reads, at an index, the bias at the index's column. -/
theorem bias_apply (b : S1x128.Idx → EReal) (i : S2000x128.Idx) :
    broadcastTo S2000x128 b broadcasts_S1x128_S2000x128 i = b (ix2 ⟨0, Nat.one_pos⟩ ⟨(i 1).val, idx2_lt1 i⟩) :=
  broadcastTo_apply b broadcasts_S1x128_S2000x128 i (ix2 ⟨0, Nat.one_pos⟩ ⟨(i 1).val, idx2_lt1 i⟩) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-! ## The body's value on a block -/

/-- On a block of 2000 rows the body computes the dense layer of that block: the narrowing casts keep the value,
    the same-shape casts are identities, each product into zero is its sum, the bias row is read at the column, and
    the scalar it is compared with is zero. -/
theorem pay_eq (x0 : Vec Ideal S2000x128 .f32) (x1 : Vec Ideal S2000x256 .f32) (x2 : Vec Ideal S128x128 .f32)
    (x3 : Vec Ideal S256x128 .f32) (x4 : Vec Ideal S1x128 .f32) :
    k2_pay1 (F := Ideal) x0 x1 x2 x3 x4
      = Cert.Lin.lin2 (M := 2000) (d1 := 128) (d2 := 256) (n := 128) x0 x1 x2 x3 x4 := by
  funext j
  unfold k2_pay1 Cert.Lin.lin2
  simp only [shapeCast_self]
  rw [maximumf_apply, addf_apply, addf_apply, broadcast_apply, mulA_apply, mulB_apply, bias_apply]
  simp only [truncf_apply]
  show max _ (Ideal.ofBits .f32 0x00000000#32) = _
  rw [Ideal.ofBits_zero_f32]

/-! ## A block of rows of the dense layer is the dense layer of the blocks of rows -/

/-- Row j of the dense layer of the blocks A' and B' is row i of the dense layer of A and B as soon as A' and B'
    hold, on row j, what A and B hold on row i, and the two indices name the same column. -/
theorem lin2_rows {M rows d1 d2 n : ℕ}
    (A : (⟨2, ![M, d1]⟩ : Shape).Idx → EReal) (B : (⟨2, ![M, d2]⟩ : Shape).Idx → EReal)
    (A' : (⟨2, ![rows, d1]⟩ : Shape).Idx → EReal) (B' : (⟨2, ![rows, d2]⟩ : Shape).Idx → EReal)
    (Wt : (⟨2, ![d1, n]⟩ : Shape).Idx → EReal) (Wb : (⟨2, ![d2, n]⟩ : Shape).Idx → EReal)
    (b : (⟨2, ![1, n]⟩ : Shape).Idx → EReal)
    (j : (⟨2, ![rows, n]⟩ : Shape).Idx) (i : (⟨2, ![M, n]⟩ : Shape).Idx)
    (hA : ∀ k : Fin d1, A' (ix2 ⟨(j 0).val, idx2_lt0 j⟩ k) = A (ix2 ⟨(i 0).val, idx2_lt0 i⟩ k))
    (hB : ∀ k : Fin d2, B' (ix2 ⟨(j 0).val, idx2_lt0 j⟩ k) = B (ix2 ⟨(i 0).val, idx2_lt0 i⟩ k))
    (hcol : (j 1).val = (i 1).val) :
    Cert.Lin.lin2 A' B' Wt Wb b j = Cert.Lin.lin2 A B Wt Wb b i := by
  unfold Cert.Lin.lin2
  have hc : (⟨(j 1).val, idx2_lt1 j⟩ : Fin n) = ⟨(i 1).val, idx2_lt1 i⟩ := Fin.ext hcol
  rw [hc]
  simp only [hA, hB]

/-! ## From the blocks to the array -/

theorem hz : (![0, 0] : Fin 2 → Nat) = fun _ => 0 := funext fun a => match a with | ⟨0, _⟩ => rfl | ⟨1, _⟩ => rfl

/-- The block index of each window at each of the 25 points: the two feature windows and the output move down by one
    block of rows per point, the weights and the bias stay at their one block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The top weights' window is the whole array at every point. -/
theorem iblk_Wt (c : Dev nD) (t : Fin cfg2.N) : (iblk2 V c 2 t : Vec Ideal S128x128 .f32) = V c main_v38 := by
  obtain ⟨-, -, -, -, e0, e1, -⟩ := block_index t
  funext y
  show V c main_v38 (((cfg2.win 2).blk t).view.emb y) = V c main_v38 y
  refine congrArg (V c main_v38) (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- The bottom weights' window is the whole array at every point. -/
theorem iblk_Wb (c : Dev nD) (t : Fin cfg2.N) : (iblk2 V c 3 t : Vec Ideal S256x128 .f32) = V c main_v39 := by
  obtain ⟨-, -, -, -, -, -, e0, e1, -⟩ := block_index t
  funext y
  show V c main_v39 (((cfg2.win 3).blk t).view.emb y) = V c main_v39 y
  refine congrArg (V c main_v39) (funext fun a => Fin.ext ?_)
  match a with
  | ⟨0, _⟩ => show win2_3.index t (0 : Fin 2) * 256 + 1 * (y 0).val = (y 0).val; rw [e0]; omega
  | ⟨1, _⟩ => show win2_3.index t (1 : Fin 2) * 128 + 1 * (y 1).val = (y 1).val; rw [e1]; omega

/-- The bias window is the whole row at every point. -/
theorem iblk_bias (c : Dev nD) (t : Fin cfg2.N) : (iblk2 V c 4 t : Vec Ideal S1x128 .f32) = V c main_v40 := by
  obtain ⟨-, -, -, -, -, -, -, -, e0, e1, -⟩ := block_index t
  funext y
  show V c main_v40 (((cfg2.win 4).blk t).view.emb y) = V c main_v40 y
  refine congrArg (V c main_v40) (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The whole-array value the output ends holding. -/
abbrev G (c : Dev nD) : S50000x128.Idx → EReal :=
  Cert.Lin.lin2 (M := 50000) (d1 := 128) (d2 := 256) (n := 128)
    (V c main_v17) (V c main_v37) (V c main_v38) (V c main_v39) (V c main_v40)

/-- What point t writes back is block t of the dense layer of the whole arrays: rows 2000·t … 2000·t + 1999. -/
theorem flushed_eq (c : Dev nD) (t : Fin cfg2.N) :
    (dat2 (F := Ideal) V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x256) hz,
    View.ld_unit_zero (S := S128x128) hz, View.ld_unit_zero (S := S256x128) hz, View.ld_unit_zero (S := S1x128) hz]
  rw [pay_eq, iblk_Wt, iblk_Wb, iblk_bias]
  obtain ⟨a0, a1, b0, b1, -, -, -, -, -, -, o0, o1⟩ := block_index t
  funext j
  show Cert.Lin.lin2 (M := 2000) (d1 := 128) (d2 := 256) (n := 128) (iblk2 V c 0 t) (iblk2 V c 1 t)
      (V c main_v38) (V c main_v39) (V c main_v40) ((cfg2.win 5).xinj (grid2.coords t) j)
    = Cert.Lin.lin2 (M := 50000) (d1 := 128) (d2 := 256) (n := 128) (V c main_v17) (V c main_v37)
      (V c main_v38) (V c main_v39) (V c main_v40) (((cfg2.win 5).blk t).view.emb j)
  have hj : (j 0).val < 2000 := (j 0).isLt
  refine lin2_rows (M := 50000) (rows := 2000) (d1 := 128) (d2 := 256) (n := 128) _ _ _ _ _ _ _ _ _ (fun k => ?_) (fun k => ?_) ?_
  · show V c main_v17 (((cfg2.win 0).blk t).view.emb _) = V c main_v17 _
    refine congrArg (V c main_v17) (funext fun a => Fin.ext ?_)
    match a with
    | ⟨0, _⟩ => show win2_0.index t (0 : Fin 2) * 2000 + 1 * (j 0).val = win2_5.index t (0 : Fin 2) * 2000 + 1 * (j 0).val; rw [a0, o0]
    | ⟨1, _⟩ => show win2_0.index t (1 : Fin 2) * 128 + 1 * k.val = k.val; rw [a1]; omega
  · show V c main_v37 (((cfg2.win 1).blk t).view.emb _) = V c main_v37 _
    refine congrArg (V c main_v37) (funext fun a => Fin.ext ?_)
    match a with
    | ⟨0, _⟩ => show win2_1.index t (0 : Fin 2) * 2000 + 1 * (j 0).val = win2_5.index t (0 : Fin 2) * 2000 + 1 * (j 0).val; rw [b0, o0]
    | ⟨1, _⟩ => show win2_1.index t (1 : Fin 2) * 256 + 1 * k.val = k.val; rw [b1]; omega
  · show (j 1).val = win2_5.index t (1 : Fin 2) * 128 + 1 * (j 1).val
    rw [o1]; omega

/-- An index of the output array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v41).slice (win2_5.rect t)).set ↔ _
  rw [View.set_slice_whole, Rect.mem_set_unit]
  exact Iff.rfl

/-- The 25 blocks of 2000 rows fill the 50000 rows: row r is in the block of point r / 2000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, o0, o1⟩ := block_index t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; rw [o0, ht]; omega
  | ⟨1, _⟩ => show win2_5.index t (1 : Fin 2) * 128 ≤ (i 1).val ∧ (i 1).val < win2_5.index t (1 : Fin 2) * 128 + 128; rw [o1]; omega

end Cert.KernelIdeal.RegionValue.Region2

namespace Cert.KernelIdeal.RegionValue
open Cert.KernelIdeal Cert.KernelIdeal.Gen
open Idealize.ShloMosaic Idealize.ShloMosaic.TcCoe Idealize.SL.Sem

theorem arr2 (V : (c : Dev nD) → (b : Ref sig .tc) → Buf (Elt Ideal) ((c : Thread nD τ).loc b)) (c : Dev nD) :
    (dat2 (F := Ideal) V c).arrAt 5 cfg2.N
      = Cert.Lin.lin2 (M := 50000) (d1 := 128) (d2 := 256) (n := 128)
          (V c main_v17) (V c main_v37) (V c main_v38) (V c main_v39) (V c main_v40) :=
  (dat2 (F := Ideal) V c).arrAt_eq_of_cover 5 (Region2.G V c) (fun t _ => Region2.flushed_eq V c t) Region2.cover

end Cert.KernelIdeal.RegionValue
end
-- ==== Proof.Region1.lean ====
import proofs.«405045_j8297876816047_1_alg».proof.Proof.Gen.KernelIdeal.Frame
import proofs.«405045_j8297876816047_1_alg».proof.Proof.LinSpec
import Idealize.ShloMosaic.Lib.Pipeline.Value
import Idealize.ShloMosaic.Lib.ValueIdx
import Idealize.ShloMosaic.PureOps.Ideal.Laws

/-! One launch of the dense-layer body over 200 blocks of 4000 rows, read as a value.

  On a block the body computes the dense layer of the block: two [4000,128] by [128,128] products summed, the bias
  row added to every row, the maximum with 0 (`pay_eq`). The two row operands' blocks at grid point `t` are rows
  `4000·t … 4000·t + 3999` of their arrays; the weights' and the bias's blocks are the whole arrays. A row of the
  dense layer depends on that row of the row operands only (`lin2_rows`), so point `t` writes back its 4000 rows of
  the dense layer of the whole arrays (`flushed_eq`); 200 · 4000 = 800000, so the blocks cover the result (`covered`),
  which therefore ends holding the dense layer of the arrays the launch found. -/

noncomputable section
namespace Cert.KernelIdeal.RegionValue
open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

namespace Region1

/-! ## The product of a block of rows with a weight matrix, entry by entry -/

/-- The left operand of the contraction is read at the output's row … -/
theorem mm_lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and at the summation index as its column; -/
theorem mm_lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- the right operand at the summation index as its row … -/
theorem mm_rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and at the output's column. -/
theorem mm_rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A [4000,128] by [128,128] product accumulated into zero: entry (r, c) is the sum over k of a(r,k)·w(k,c). -/
theorem mm_apply {φ₁ φ₂ : FTy} (a : FVec Ideal S4000x128 φ₁) (w : FVec Ideal S128x128 φ₂) (j : S4000x128.Idx) :
    matmul dot_S4000x128_S128x128_S4000x128_1_0_0_1_n_n none a w (constant (F := Ideal) S4000x128 .f32 0x00000000#32) j
      = ∑ k : Fin 128, a (ix2 ⟨(j 0).val, idx2_lt0 j⟩ k) * w (ix2 k ⟨(j 1).val, idx2_lt1 j⟩) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = ix2 ⟨(j 0).val, idx2_lt0 j⟩ k := funext fun a => Fin.ext (by
    match a with
    | ⟨0, _⟩ => exact mm_lhs_row _ _
    | ⟨1, _⟩ => exact (mm_lhs_col _ _).trans hk)
  have er : dot_S4000x128_S128x128_S4000x128_1_0_0_1_n_n.rhsIdx j ((ValueIdx.contrEquiv1 dot_S4000x128_S128x128_S4000x128_1_0_0_1_n_n 128 rfl rfl).symm k) = ix2 k ⟨(j 1).val, idx2_lt1 j⟩ := funext fun a => Fin.ext (by
    match a with
    | ⟨0, _⟩ => exact (mm_rhs_row _ _).trans hk
    | ⟨1, _⟩ => exact mm_rhs_col _ _)
  rw [el, er]

/-- The bias row broadcast down the 4000 rows reads the bias at the column. -/
theorem bias_apply {α : Type} (b : S1x128.Idx → α) (j : S4000x128.Idx) :
    broadcastTo S4000x128 b broadcasts_S1x128_S4000x128 j = b (ix2 ⟨0, Nat.one_pos⟩ ⟨(j 1).val, idx2_lt1 j⟩) := by
  refine broadcastTo_apply b broadcasts_S1x128_S4000x128 j _ fun a => ?_
  match a with
  | ⟨0, _⟩ => show 0 = if (1 : Nat) = 1 then 0 else _; rw [if_pos rfl]
  | ⟨1, _⟩ => show (j 1).val = if (128 : Nat) = 1 then 0 else (j 1).val; rw [if_neg (by decide)]

/-! ## The body on a block is the dense layer at block height -/

/-- What the body stores, from the five blocks it loads: the dense layer of those blocks. -/
theorem pay_eq (x0 x1 : Vec Ideal S4000x128 .f32) (x2 x3 : Vec Ideal S128x128 .f32) (x4 : Vec Ideal S1x128 .f32) :
    k1_pay1 (F := Ideal) x0 x1 x2 x3 x4
      = Cert.Lin.lin2 (M := 4000) (d1 := 128) (d2 := 128) (n := 128) x0 x1 x2 x3 x4 := by
  funext j
  unfold k1_pay1 Cert.Lin.lin2
  simp only [shapeCast_self]
  rw [maximumf_apply, addf_apply, addf_apply, broadcast_apply, bias_apply, mm_apply, mm_apply]
  simp only [truncf_apply]
  exact congrArg (max _) Ideal.ofBits_zero_f32

/-! ## A block of rows of the dense layer -/

/-- Row `r·4000 + p` of the dense layer of whole arrays is row `p` of the dense layer of the `r`-th 4000-row blocks
    of the two row operands (the weights and the bias are shared by every block): the layer's row depends on that row
    of the operands only. -/
theorem lin2_rows (A B : S800000x128.Idx → EReal) (Wt Wb : S128x128.Idx → EReal) (b : S1x128.Idx → EReal)
    (a' b' : S4000x128.Idx → EReal) (r : ℕ)
    (ha : ∀ (y : S4000x128.Idx) (k : S800000x128.Idx), (k 0).val = r * 4000 + (y 0).val → (k 1).val = (y 1).val → a' y = A k)
    (hb : ∀ (y : S4000x128.Idx) (k : S800000x128.Idx), (k 0).val = r * 4000 + (y 0).val → (k 1).val = (y 1).val → b' y = B k)
    (j : S4000x128.Idx) (i : S800000x128.Idx) (hi0 : (i 0).val = r * 4000 + (j 0).val) (hi1 : (i 1).val = (j 1).val) :
    Cert.Lin.lin2 (M := 4000) (d1 := 128) (d2 := 128) (n := 128) a' b' Wt Wb b j
      = Cert.Lin.lin2 (M := 800000) (d1 := 128) (d2 := 128) (n := 128) A B Wt Wb b i := by
  unfold Cert.Lin.lin2
  have e1 : (⟨(j 1).val, idx2_lt1 j⟩ : Fin 128) = ⟨(i 1).val, idx2_lt1 i⟩ := Fin.ext hi1.symm
  have sA : ∀ k : Fin 128, a' (ix2 ⟨(j 0).val, idx2_lt0 j⟩ k) = A (ix2 ⟨(i 0).val, idx2_lt0 i⟩ k) := fun k => ha _ _ hi0 rfl
  have sB : ∀ k : Fin 128, b' (ix2 ⟨(j 0).val, idx2_lt0 j⟩ k) = B (ix2 ⟨(i 0).val, idx2_lt0 i⟩ k) := fun k => hb _ _ hi0 rfl
  simp only [sA, sB, e1]

/-! ## The windows' blocks as parts of the arrays -/

theorem zero_offsets : (![0, 0] : Fin 2 → Nat) = fun _ => 0 := funext fun a => by fin_cases a <;> rfl

/-- Where each window's block sits at grid point `t`: the two row operands and the result move with the point, block
    `(t, 0)`; the weights and the bias stay at block `(0, 0)`. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b)) (c : Dev nD)

/-- The first row operand's block at point `t` is rows `4000·t … 4000·t + 3999` of its array. -/
theorem rowsA_apply (t : Fin cfg1.N) (y : S4000x128.Idx) (k : S800000x128.Idx)
    (hk0 : (k 0).val = t.val * 4000 + (y 0).val) (hk1 : (k 1).val = (y 1).val) :
    (iblk1 V c 0 t : Vec Ideal S4000x128 .f32) y = (V c main_v18 : S800000x128.Idx → EReal) k := by
  obtain ⟨h00, h01, -⟩ := block_indices t
  unfold iblk1
  rw [View.read_apply]
  show V c main_v18 _ = V c main_v18 _
  congr 1
  funext a
  apply Fin.ext
  match a with
  | ⟨0, _⟩ => show win1_0.index t (0 : Fin 2) * 4000 + 1 * (y 0).val = (k 0).val; rw [h00, hk0]; omega
  | ⟨1, _⟩ => show win1_0.index t (1 : Fin 2) * 128 + 1 * (y 1).val = (k 1).val; rw [h01, hk1]; omega

/-- The second row operand's block at point `t` is the same rows of its array. -/
theorem rowsB_apply (t : Fin cfg1.N) (y : S4000x128.Idx) (k : S800000x128.Idx)
    (hk0 : (k 0).val = t.val * 4000 + (y 0).val) (hk1 : (k 1).val = (y 1).val) :
    (iblk1 V c 1 t : Vec Ideal S4000x128 .f32) y = (V c main_v19 : S800000x128.Idx → EReal) k := by
  obtain ⟨-, -, h10, h11, -⟩ := block_indices t
  unfold iblk1
  rw [View.read_apply]
  show V c main_v19 _ = V c main_v19 _
  congr 1
  funext a
  apply Fin.ext
  match a with
  | ⟨0, _⟩ => show win1_1.index t (0 : Fin 2) * 4000 + 1 * (y 0).val = (k 0).val; rw [h10, hk0]; omega
  | ⟨1, _⟩ => show win1_1.index t (1 : Fin 2) * 128 + 1 * (y 1).val = (k 1).val; rw [h11, hk1]; omega

/-- The first weight matrix's block is the matrix, at every point. -/
theorem weightsTop_eq (t : Fin cfg1.N) :
    (iblk1 V c 2 t : Vec Ideal S128x128 .f32) = (V c main_v20 : S128x128.Idx → EReal) := by
  obtain ⟨-, -, -, -, h20, h21, -⟩ := block_indices t
  funext y
  unfold iblk1
  rw [View.read_apply]
  show V c main_v20 _ = V c main_v20 y
  congr 1
  funext a
  apply Fin.ext
  match a with
  | ⟨0, _⟩ => show win1_2.index t (0 : Fin 2) * 128 + 1 * (y 0).val = (y 0).val; rw [h20]; omega
  | ⟨1, _⟩ => show win1_2.index t (1 : Fin 2) * 128 + 1 * (y 1).val = (y 1).val; rw [h21]; omega

/-- So is the second weight matrix's. -/
theorem weightsBottom_eq (t : Fin cfg1.N) :
    (iblk1 V c 3 t : Vec Ideal S128x128 .f32) = (V c main_v21 : S128x128.Idx → EReal) := by
  obtain ⟨-, -, -, -, -, -, h30, h31, -⟩ := block_indices t
  funext y
  unfold iblk1
  rw [View.read_apply]
  show V c main_v21 _ = V c main_v21 y
  congr 1
  funext a
  apply Fin.ext
  match a with
  | ⟨0, _⟩ => show win1_3.index t (0 : Fin 2) * 128 + 1 * (y 0).val = (y 0).val; rw [h30]; omega
  | ⟨1, _⟩ => show win1_3.index t (1 : Fin 2) * 128 + 1 * (y 1).val = (y 1).val; rw [h31]; omega

/-- And the bias row's block is the bias row. -/
theorem bias_eq (t : Fin cfg1.N) :
    (iblk1 V c 4 t : Vec Ideal S1x128 .f32) = (V c main_v22 : S1x128.Idx → EReal) := by
  obtain ⟨-, -, -, -, -, -, -, -, h40, h41, -⟩ := block_indices t
  funext y
  unfold iblk1
  rw [View.read_apply]
  show V c main_v22 _ = V c main_v22 y
  congr 1
  funext a
  apply Fin.ext
  match a with
  | ⟨0, _⟩ => show win1_4.index t (0 : Fin 2) * 1 + 1 * (y 0).val = (y 0).val; rw [h40]; omega
  | ⟨1, _⟩ => show win1_4.index t (1 : Fin 2) * 128 + 1 * (y 1).val = (y 1).val; rw [h41]; omega

/-! ## What a point writes back, and the whole result -/

/-- The dense layer of the five arrays as the region finds them. -/
abbrev layer : S800000x128.Idx → EReal :=
  Cert.Lin.lin2 (M := 800000) (d1 := 128) (d2 := 128) (n := 128)
    (V c main_v18) (V c main_v19) (V c main_v20) (V c main_v21) (V c main_v22)

/-- Point `t` writes back rows `4000·t … 4000·t + 3999` of the dense layer of the whole arrays. -/
theorem flushed_eq (t : Fin cfg1.N) :
    (dat1 (F := Ideal) V c).flushed 5 t = ((cfg1.win 5).blk t).view.read (Elt Ideal) (layer V c) := by
  show (cfg1.win 5).cut (grid1.coords t) ((dat1 V c).after 5 t) = _
  rw [after1_5]
  unfold out1_5
  rw [View.canon_unit_zero zero_offsets]
  simp only [View.ld_unit_zero (S := S4000x128) zero_offsets, View.ld_unit_zero (S := S128x128) zero_offsets,
    View.ld_unit_zero (S := S1x128) zero_offsets]
  rw [pay_eq, weightsTop_eq, weightsBottom_eq, bias_eq]
  obtain ⟨-, -, -, -, -, -, -, -, -, -, h50, h51⟩ := block_indices t
  funext j
  rw [View.read_apply]
  refine lin2_rows _ _ _ _ _ _ _ t.val (fun y k h0 h1 => rowsA_apply V c t y k h0 h1)
    (fun y k h0 h1 => rowsB_apply V c t y k h0 h1) j _ ?_ ?_
  · show win1_5.index t (0 : Fin 2) * 4000 + 1 * (j 0).val = t.val * 4000 + (j 0).val; rw [h50]; omega
  · show win1_5.index t (1 : Fin 2) * 128 + 1 * (j 1).val = (j 1).val; rw [h51]; omega

/-- An index of the result array is in point `t`'s block iff each coordinate is in the block's range on its axis. -/
theorem mem_block (t : Fin cfg1.N) (i : S800000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v23).slice (win1_5.rect t)).set ↔ _
  rw [View.set_slice_whole, Rect.mem_set_unit]
  exact Iff.rfl

/-- Every row of the result is some point's: row `r` is in the block of point `r / 4000`, as 800000 = 200 · 4000. -/
theorem covered (i : S800000x128.Idx) :
    ∃ t : Fin cfg1.N, (cfg1.win 5).flush t = true ∧ i ∈ ((cfg1.win 5).blk t).view.set := by
  have hi0 : (i 0).val < 800000 := idx2_lt0 i
  have hi1 : (i 1).val < 128 := idx2_lt1 i
  have ht : (i 0).val / 4000 < cfg1.N := lt_of_lt_of_eq (by omega : (i 0).val / 4000 < 200) N_1.symm
  obtain ⟨-, -, -, -, -, -, -, -, -, -, h50, h51⟩ := block_indices ⟨(i 0).val / 4000, ht⟩
  refine ⟨⟨(i 0).val / 4000, ht⟩, flush1_5 _, ?_⟩
  rw [mem_block]
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [h50]; show (i 0).val / 4000 * 4000 ≤ (i 0).val ∧ (i 0).val < (i 0).val / 4000 * 4000 + 4000; omega
  | ⟨1, _⟩ =>
    show win1_5.index ⟨(i 0).val / 4000, ht⟩ (1 : Fin 2) * 128 ≤ (i 1).val ∧ (i 1).val < win1_5.index ⟨(i 0).val / 4000, ht⟩ (1 : Fin 2) * 128 + 128
    rw [h51]; omega

end Region1

/-- After the region's 200 points the result array holds the dense layer of the five arrays the region found. -/
theorem arr1 (V : (c : Dev nD) → (b : Ref sig .tc) → Buf (Elt Ideal) ((c : Thread nD τ).loc b)) (c : Dev nD) :
    (dat1 (F := Ideal) V c).arrAt 5 cfg1.N
      = Cert.Lin.lin2 (M := 800000) (d1 := 128) (d2 := 128) (n := 128)
          (V c main_v18) (V c main_v19) (V c main_v20) (V c main_v21) (V c main_v22) :=
  (dat1 (F := Ideal) V c).arrAt_eq_of_cover 5 (Region1.layer V c) (fun t _ => Region1.flushed_eq V c t) Region1.covered

end Cert.KernelIdeal.RegionValue
end
-- ==== Proof.Region0.lean ====
/-
  Region 0 of the kernel program is the dense layer on row blocks: at grid point `t` the body reads rows
  `2000·t … 2000·t + 1999` of the two activation arrays, the two weight matrices and the bias row whole, and stores
  `max (A·Wt + B·Wb + bias) 0` into rows `2000·t … 2000·t + 1999` of the result. Two facts make the result array the
  dense layer of the whole arrays:

  * on one block the body's stored value is `Cert.Lin.lin2` at block height (each matrix product read at an index is a
    sum over the one contracted axis; the format changes are the identity on extended reals; the bias row is broadcast
    down the rows);
  * row `r` of `lin2` depends on row `r` of the activations only, so block `t` of `lin2` of the whole arrays is `lin2`
    of block `t` of the activations, and the 25 blocks of 2000 rows fill the 50000 rows exactly.
-/
import proofs.«405045_j8297876816047_1_alg».proof.Proof.Gen.KernelIdeal.Frame
import proofs.«405045_j8297876816047_1_alg».proof.Proof.LinSpec
import Idealize.ShloMosaic.Lib.Pipeline.Value
import Idealize.ShloMosaic.Lib.ValueIdx
import Idealize.ShloMosaic.PureOps.Ideal.Laws

noncomputable section
namespace Cert.KernelIdeal.RegionValue
open Cert.KernelIdeal Cert.KernelIdeal.Gen
open Idealize.ShloMosaic Idealize.ShloMosaic.TcCoe Idealize.SL.Sem
open Idealize.ShloMosaic.ValueIdx
open Idealize.ShloMosaic.Pipeline (Dat)

namespace Region0

/-! ## The two matrix products read at an index -/

/-- The activation-side index of the first product keeps the output's row … -/
theorem lhs_top_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- … and takes the contraction index as its column; -/
theorem lhs_top_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- the weight-side index takes the contraction index as its row … -/
theorem rhs_top_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- … and keeps the output's column. -/
theorem rhs_top_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The same four facts for the second product, whose contracted axis has 128 entries. -/
theorem lhs_bot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_bot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_bot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_bot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The first product into the zero accumulator, at row `j 0` and column `j 1`: the sum over the 64 contracted entries of
    the activation's row times the weight's column. -/
theorem matmul_top_apply (y : FVec Ideal S2000x64 .bf16) (w : FVec Ideal S64x128 .bf16) (j : S2000x128.Idx) :
    matmul dot_S2000x64_S64x128_S2000x128_1_0_0_1_n_n none y w (constant (F := Ideal) S2000x128 .f32 0x00000000#32) j
      = ∑ k : Fin 64, y (ix2 ⟨(j 0).val, idx2_lt0 j⟩ k) * w (ix2 k ⟨(j 1).val, idx2_lt1 j⟩) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx j ((ValueIdx.contrEquiv1 dot_S2000x64_S64x128_S2000x128_1_0_0_1_n_n 64 rfl rfl).symm k) = ix2 ⟨(j 0).val, idx2_lt0 j⟩ k := funext fun a => Fin.ext (by
    match a with
    | ⟨0, _⟩ => exact lhs_top_0 _ _
    | ⟨1, _⟩ => exact (lhs_top_1 _ _).trans hk)
  have er : dot_S2000x64_S64x128_S2000x128_1_0_0_1_n_n.rhsIdx j ((ValueIdx.contrEquiv1 dot_S2000x64_S64x128_S2000x128_1_0_0_1_n_n 64 rfl rfl).symm k) = ix2 k ⟨(j 1).val, idx2_lt1 j⟩ := funext fun a => Fin.ext (by
    match a with
    | ⟨0, _⟩ => exact (rhs_top_0 _ _).trans hk
    | ⟨1, _⟩ => exact rhs_top_1 _ _)
  rw [el, er]

/-- The second product likewise, over its 128 contracted entries. -/
theorem matmul_bot_apply (y : FVec Ideal S2000x128 .bf16) (w : FVec Ideal S128x128 .bf16) (j : S2000x128.Idx) :
    matmul dot_S2000x128_S128x128_S2000x128_1_0_0_1_n_n none y w (constant (F := Ideal) S2000x128 .f32 0x00000000#32) j
      = ∑ k : Fin 128, y (ix2 ⟨(j 0).val, idx2_lt0 j⟩ k) * w (ix2 k ⟨(j 1).val, idx2_lt1 j⟩) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx j ((ValueIdx.contrEquiv1 dot_S2000x128_S128x128_S2000x128_1_0_0_1_n_n 128 rfl rfl).symm k) = ix2 ⟨(j 0).val, idx2_lt0 j⟩ k := funext fun a => Fin.ext (by
    match a with
    | ⟨0, _⟩ => exact lhs_bot_0 _ _
    | ⟨1, _⟩ => exact (lhs_bot_1 _ _).trans hk)
  have er : dot_S2000x128_S128x128_S2000x128_1_0_0_1_n_n.rhsIdx j ((ValueIdx.contrEquiv1 dot_S2000x128_S128x128_S2000x128_1_0_0_1_n_n 128 rfl rfl).symm k) = ix2 k ⟨(j 1).val, idx2_lt1 j⟩ := funext fun a => Fin.ext (by
    match a with
    | ⟨0, _⟩ => exact (rhs_bot_0 _ _).trans hk
    | ⟨1, _⟩ => exact rhs_bot_1 _ _)
  rw [el, er]

/-! ## The body's stored value on one block -/

/-- What the body stores, from the five blocks it loads: the dense layer at block height. The format changes and the
    same-shape casts are the identity, each product is its sum over the contracted axis, the bias row is read at row 0
    whatever the output's row, and the scalar the maximum is taken against is the extended real 0. -/
theorem pay_eq_lin2 (x0 : Vec Ideal S2000x64 .f32) (x1 : Vec Ideal S2000x128 .f32) (x2 : Vec Ideal S64x128 .f32)
    (x3 : Vec Ideal S128x128 .f32) (x4 : Vec Ideal S1x128 .f32) :
    k0_pay1 (F := Ideal) x0 x1 x2 x3 x4
      = Cert.Lin.lin2 (M := 2000) (d1 := 64) (d2 := 128) (n := 128) x0 x1 x2 x3 x4 := by
  funext j
  unfold k0_pay1
  simp only [maximumf_apply, addf_apply, broadcast_apply, shapeCast_self]
  rw [matmul_top_apply, matmul_bot_apply]
  simp only [truncf_apply]
  have hbias : broadcastTo S2000x128 x4 broadcasts_S1x128_S2000x128 j = x4 (ix2 ⟨0, Nat.one_pos⟩ ⟨(j 1).val, idx2_lt1 j⟩) :=
    broadcastTo_apply x4 broadcasts_S1x128_S2000x128 j _ (fun a => by
      match a with
      | ⟨0, _⟩ => rfl
      | ⟨1, _⟩ => rfl)
  rw [hbias]
  show max _ (Ideal.ofBits .f32 0x00000000#32) = _
  rw [Ideal.ofBits_zero_f32]
  rfl

/-! ## Row blocks of the dense layer -/

/-- Rows `s … s + 1999` of the dense layer of the whole arrays are the dense layer of rows `s … s + 1999` of the two
    activation arrays: entry `(s + r, q)` sums over row `s + r` of the activations only. -/
theorem lin2_rows (A : S50000x64.Idx → EReal) (B : S50000x128.Idx → EReal) (Wt : S64x128.Idx → EReal)
    (Wb : S128x128.Idx → EReal) (b : S1x128.Idx → EReal) (a : S2000x64.Idx → EReal) (a' : S2000x128.Idx → EReal) (s : ℕ)
    (ha : ∀ (y : S2000x64.Idx) (k : S50000x64.Idx), (k 0).val = s + (y 0).val → (k 1).val = (y 1).val → a y = A k)
    (ha' : ∀ (y : S2000x128.Idx) (k : S50000x128.Idx), (k 0).val = s + (y 0).val → (k 1).val = (y 1).val → a' y = B k)
    (j : S2000x128.Idx) (i : S50000x128.Idx) (h0 : (i 0).val = s + (j 0).val) (h1 : (i 1).val = (j 1).val) :
    Cert.Lin.lin2 (M := 2000) (d1 := 64) (d2 := 128) (n := 128) a a' Wt Wb b j
      = Cert.Lin.lin2 (M := 50000) (d1 := 64) (d2 := 128) (n := 128) A B Wt Wb b i := by
  unfold Cert.Lin.lin2
  have ecol : (⟨(j 1).val, idx2_lt1 j⟩ : Fin 128) = ⟨(i 1).val, idx2_lt1 i⟩ := Fin.ext h1.symm
  rw [ecol]
  have etop : ∀ k : Fin 64, a (ix2 ⟨(j 0).val, idx2_lt0 j⟩ k) = A (ix2 ⟨(i 0).val, idx2_lt0 i⟩ k) :=
    fun k => ha _ _ h0 rfl
  have ebot : ∀ k : Fin 128, a' (ix2 ⟨(j 0).val, idx2_lt0 j⟩ k) = B (ix2 ⟨(i 0).val, idx2_lt0 i⟩ k) :=
    fun k => ha' _ _ h0 rfl
  simp only [etop, ebot]

/-! ## The windows' blocks as parts of their arrays -/

theorem offsets_zero : (![0, 0] : Fin 2 → Nat) = fun _ => 0 := funext fun a => by fin_cases a <;> rfl

/-- The printed index maps over the 25 points: the two activation windows and the result window sit at row block `t`,
    column block 0; the weights and the bias are their arrays' one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Entry `y` of the first activation window's block at point `t` is entry `(2000·t + y 0, y 1)` of its array. -/
theorem act_top_block (t : Fin cfg0.N) (y : S2000x64.Idx) (k : S50000x64.Idx)
    (hk0 : (k 0).val = 2000 * t.val + (y 0).val) (hk1 : (k 1).val = (y 1).val) :
    (iblk0 V c 0 t : Vec Ideal S2000x64 .f32) y = (V c main_arg0 : S50000x64.Idx → EReal) k := by
  obtain ⟨e00, e01, -⟩ := block_index t
  unfold iblk0
  rw [View.read_apply]
  show V c main_arg0 _ = V c main_arg0 _
  congr 1
  funext a
  apply Fin.ext
  match a with
  | ⟨0, _⟩ => show win0_0.index t (0 : Fin 2) * 2000 + 1 * (y 0).val = (k 0).val; rw [e00, hk0]; omega
  | ⟨1, _⟩ => show win0_0.index t (1 : Fin 2) * 64 + 1 * (y 1).val = (k 1).val; rw [e01, hk1]; omega

/-- The same for the second activation window. -/
theorem act_bot_block (t : Fin cfg0.N) (y : S2000x128.Idx) (k : S50000x128.Idx)
    (hk0 : (k 0).val = 2000 * t.val + (y 0).val) (hk1 : (k 1).val = (y 1).val) :
    (iblk0 V c 1 t : Vec Ideal S2000x128 .f32) y = (V c main_v13 : S50000x128.Idx → EReal) k := by
  obtain ⟨-, -, e10, e11, -⟩ := block_index t
  unfold iblk0
  rw [View.read_apply]
  show V c main_v13 _ = V c main_v13 _
  congr 1
  funext a
  apply Fin.ext
  match a with
  | ⟨0, _⟩ => show win0_1.index t (0 : Fin 2) * 2000 + 1 * (y 0).val = (k 0).val; rw [e10, hk0]; omega
  | ⟨1, _⟩ => show win0_1.index t (1 : Fin 2) * 128 + 1 * (y 1).val = (k 1).val; rw [e11, hk1]; omega

/-- The first weight window's one block is its array. -/
theorem weight_top_block (t : Fin cfg0.N) :
    (iblk0 V c 2 t : Vec Ideal S64x128 .f32) = (V c main_v14 : S64x128.Idx → EReal) := by
  obtain ⟨-, -, -, -, e20, e21, -⟩ := block_index t
  funext y
  unfold iblk0
  rw [View.read_apply]
  show V c main_v14 _ = V c main_v14 _
  congr 1
  funext a
  apply Fin.ext
  match a with
  | ⟨0, _⟩ => show win0_2.index t (0 : Fin 2) * 64 + 1 * (y 0).val = (y 0).val; rw [e20]; omega
  | ⟨1, _⟩ => show win0_2.index t (1 : Fin 2) * 128 + 1 * (y 1).val = (y 1).val; rw [e21]; omega

/-- The second weight window's one block is its array. -/
theorem weight_bot_block (t : Fin cfg0.N) :
    (iblk0 V c 3 t : Vec Ideal S128x128 .f32) = (V c main_v15 : S128x128.Idx → EReal) := by
  obtain ⟨-, -, -, -, -, -, e30, e31, -⟩ := block_index t
  funext y
  unfold iblk0
  rw [View.read_apply]
  show V c main_v15 _ = V c main_v15 _
  congr 1
  funext a
  apply Fin.ext
  match a with
  | ⟨0, _⟩ => show win0_3.index t (0 : Fin 2) * 128 + 1 * (y 0).val = (y 0).val; rw [e30]; omega
  | ⟨1, _⟩ => show win0_3.index t (1 : Fin 2) * 128 + 1 * (y 1).val = (y 1).val; rw [e31]; omega

/-- The bias window's one block is its array. -/
theorem bias_block (t : Fin cfg0.N) :
    (iblk0 V c 4 t : Vec Ideal S1x128 .f32) = (V c main_v16 : S1x128.Idx → EReal) := by
  obtain ⟨-, -, -, -, -, -, -, -, e40, e41, -⟩ := block_index t
  funext y
  unfold iblk0
  rw [View.read_apply]
  show V c main_v16 _ = V c main_v16 _
  congr 1
  funext a
  apply Fin.ext
  match a with
  | ⟨0, _⟩ => show win0_4.index t (0 : Fin 2) * 1 + 1 * (y 0).val = (y 0).val; rw [e40]; omega
  | ⟨1, _⟩ => show win0_4.index t (1 : Fin 2) * 128 + 1 * (y 1).val = (y 1).val; rw [e41]; omega

/-! ## From the blocks to the result array -/

/-- What point `t` writes back is block `t` of the dense layer of the arrays as the region finds them. -/
theorem flushed_eq (t : Fin cfg0.N) :
    (dat0 (F := Ideal) V c).flushed 5 t = ((cfg0.win 5).blk t).view.read (Elt Ideal)
      (Cert.Lin.lin2 (M := 50000) (d1 := 64) (d2 := 128) (n := 128)
        (V c main_arg0) (V c main_v13) (V c main_v14) (V c main_v15) (V c main_v16)) := by
  show (cfg0.win 5).cut (grid0.coords t) ((dat0 (F := Ideal) V c).after 5 t) = _
  rw [after0_5]
  unfold out0_5
  rw [View.canon_unit_zero offsets_zero]
  simp only [View.ld_unit_zero (S := S2000x64) offsets_zero, View.ld_unit_zero (S := S2000x128) offsets_zero,
    View.ld_unit_zero (S := S64x128) offsets_zero, View.ld_unit_zero (S := S128x128) offsets_zero,
    View.ld_unit_zero (S := S1x128) offsets_zero]
  rw [pay_eq_lin2 (iblk0 V c 0 t) (iblk0 V c 1 t) (iblk0 V c 2 t) (iblk0 V c 3 t) (iblk0 V c 4 t),
    weight_top_block V c t, weight_bot_block V c t, bias_block V c t]
  obtain ⟨-, -, -, -, -, -, -, -, -, -, e50, e51⟩ := block_index t
  funext j
  rw [View.read_apply]
  refine lin2_rows _ _ _ _ _ _ _ (2000 * t.val) (fun y k h0 h1 => act_top_block V c t y k h0 h1)
    (fun y k h0 h1 => act_bot_block V c t y k h0 h1) j _ ?_ ?_
  · show win0_5.index t (0 : Fin 2) * 2000 + 1 * (j 0).val = 2000 * t.val + (j 0).val; rw [e50]; omega
  · show win0_5.index t (1 : Fin 2) * 128 + 1 * (j 1).val = (j 1).val; rw [e51]; omega

/-- An index of the result array is in point `t`'s block iff each coordinate is in the block's range on its axis. -/
theorem mem_block (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v17).slice (win0_5.rect t)).set ↔ _
  rw [View.set_slice_whole, Rect.mem_set_unit]
  exact Iff.rfl

/-- Row `r` of the result is written by point `r / 2000`: the 25 blocks of 2000 rows fill the 50000 rows. -/
theorem rows_covered (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : cfg0.N = 25 := N_0
  have ht : (i 0).val / 2000 < cfg0.N := by rw [hN]; omega
  obtain ⟨-, -, -, -, -, -, -, -, -, -, e50, e51⟩ := block_index ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

end Blocks

end Region0

/-- After region 0 the result array holds the dense layer of the region's five input arrays. -/
theorem arr0 (V : (c : Dev nD) → (b : Ref sig .tc) → Buf (Elt Ideal) ((c : Thread nD τ).loc b)) (c : Dev nD) :
    (dat0 (F := Ideal) V c).arrAt 5 cfg0.N
      = Cert.Lin.lin2 (M := 50000) (d1 := 64) (d2 := 128) (n := 128)
          (V c main_arg0) (V c main_v13) (V c main_v14) (V c main_v15) (V c main_v16) :=
  (dat0 (F := Ideal) V c).arrAt_eq_of_cover 5 _ (fun t _ => Region0.flushed_eq V c t) Region0.rows_covered

end Cert.KernelIdeal.RegionValue
end
-- ==== Proof.Chain0.lean ====
/-
  The kernel's fold up to the first node layer.

  Region 0 enters with the node features, the aggregated neighbour features (a lookup of source rows joined with the edge
  features, summed onto destinations and divided by the in-degree), the two row-slices of the weight matrix and the bias as a
  row. On in-range indices the lookup's mask is all ones, so the aggregated features are the reference's own stage of the
  arguments; the region's output array is the dense layer of what it entered with, and that is the reference's joined form.

  What the host stretches compute is the same for every reading of the floats, and is stated so; only the dense layer's
  two spellings are compared over the extended reals.
-/
import proofs.«405045_j8297876816047_1_alg».proof.Proof.RefStages
import proofs.«405045_j8297876816047_1_alg».proof.Proof.Gen.KernelIdeal.Frame
import proofs.«405045_j8297876816047_1_alg».proof.Proof.TakeMask
import proofs.«405045_j8297876816047_1_alg».proof.Proof.LinLaw
import proofs.«405045_j8297876816047_1_alg».proof.Proof.Region0
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.TakeMask

section Stretches

variable {F : FTy → Type} [FloatOps F]
variable (m : (ℓ : Loc nD τ sig) → Buf (Elt F) ℓ) (ρ : Dev nD → PrngReg)

/-! ## The first stretch: the lookup of source rows -/

set_option maxHeartbeats 4000000 in
/-- On in-range source indices the looked-up rows are the bare gather at the wrapped column. (The lookup is an outlined
    function: its values pass through identity transports between a buffer's type and the value's, removed here.) -/
theorem lookup0 (c : Dev nD) (hu : InRange (m ((c : Thread nD τ).loc main_arg10))) :
    (W1 m ρ c (Proc.devRef .tc main_v0) : S800000x64.Idx → Elt F .f32)
      = Host.gather gather_S50000x64_S800000x1_S800000x64_1_0_n_n_0_1_164 (m ((c : Thread nD τ).loc main_arg0)) (wrapped (m ((c : Thread nD τ).loc main_arg10))) := by
  have hx : W0 m ρ c (Proc.devRef .tc main_arg0) = (m ((c : Thread nD τ).loc main_arg0)) := rfl
  have hi : W0 m ρ c (Proc.devRef .tc main_arg10) = (m ((c : Thread nD τ).loc main_arg10)) := rfl
  dsimp only [W1, hostOps0]
  generalize W0 m ρ c = V0 at hx hi ⊢
  after_results
  strip_transports
  rw [hx, hi]
  close_lookup (m ((c : Thread nD τ).loc main_arg10)), (m ((c : Thread nD τ).loc main_arg0)), FVec F S50000x64 .f32, hu, lookup64

set_option maxHeartbeats 8000000 in
/-- The lookup writes no argument. -/
theorem kept1 (c : Dev nD) (b : Ref sig .tc)
    (hb : b ∈ [main_arg0, main_arg1, main_arg2, main_arg3, main_arg4, main_arg5, main_arg6, main_arg7, main_arg8,
      main_arg9, main_arg10, main_arg11]) :
    W1 m ρ c (Proc.devRef .tc b) = m ((c : Thread nD τ).loc b) := by
  simp only [List.mem_cons, List.mem_nil_iff, or_false] at hb
  rcases hb with rfl | rfl | rfl | rfl | rfl | rfl | rfl | rfl | rfl | rfl | rfl | rfl <;>
    (dsimp only [W1, hostOps0]; after_results; try rfl)

/-! ## The second stretch: region 0's entry -/

set_option maxHeartbeats 4000000 in
/-- The aggregated neighbour features, on in-range source indices, are the reference's stage of the arguments. -/
theorem entry0_neigh (c : Dev nD) (hu : InRange (m ((c : Thread nD τ).loc main_arg10))) :
    (W2 m ρ c (Proc.devRef .tc main_v13) : S50000x128.Idx → Elt F .f32)
      = Cert.ReferenceIdeal.Stages.val_main_v19 (F := F) (m ((c : Thread nD τ).loc main_arg0)) (m ((c : Thread nD τ).loc main_arg1)) (m ((c : Thread nD τ).loc main_arg10)) (m ((c : Thread nD τ).loc main_arg11)) := by
  have h0 := lookup0 m ρ c hu
  have h1 := kept1 m ρ c main_arg1 (by decide)
  have h11 := kept1 m ρ c main_arg11 (by decide)
  dsimp only [W2, hostOps0_1]
  generalize W1 m ρ c = U at h0 h1 h11 ⊢
  after_results
  rw [h0, h1, h11]
  rfl

set_option maxHeartbeats 8000000 in
/-- The second stretch writes no argument either. -/
theorem kept2 (c : Dev nD) (b : Ref sig .tc)
    (hb : b ∈ [main_arg0, main_arg2, main_arg3, main_arg4, main_arg5, main_arg6, main_arg7, main_arg8,
      main_arg9, main_arg10, main_arg11]) :
    W2 m ρ c (Proc.devRef .tc b) = m ((c : Thread nD τ).loc b) := by
  simp only [List.mem_cons, List.mem_nil_iff, or_false] at hb
  rcases hb with rfl | rfl | rfl | rfl | rfl | rfl | rfl | rfl | rfl | rfl | rfl <;>
    (refine Eq.trans ?_ (kept1 m ρ c _ (by decide)); dsimp only [W2, hostOps0_1]; generalize W1 m ρ c = U; after_results)

/-- The weight's first 64 rows. -/
theorem entry0_wtop (c : Dev nD) :
    (W2 m ρ c (Proc.devRef .tc main_v14) : S64x128.Idx → Elt F .f32)
      = extractStridedSlice S64x128 ![0, 0] (m ((c : Thread nD τ).loc main_arg2)) Facts₀.slices_S192x128_S64x128_0_0 := by
  have h2 := kept1 m ρ c main_arg2 (by decide)
  dsimp only [W2, hostOps0_1]
  generalize W1 m ρ c = U at h2 ⊢
  after_results
  rw [h2]

/-- The weight's last 128 rows. -/
theorem entry0_wbot (c : Dev nD) :
    (W2 m ρ c (Proc.devRef .tc main_v15) : S128x128.Idx → Elt F .f32)
      = extractStridedSlice S128x128 ![64, 0] (m ((c : Thread nD τ).loc main_arg2)) Facts₀.slices_S192x128_S128x128_64_0 := by
  have h2 := kept1 m ρ c main_arg2 (by decide)
  dsimp only [W2, hostOps0_1]
  generalize W1 m ρ c = U at h2 ⊢
  after_results
  rw [h2]

/-- The bias as a row. -/
theorem entry0_bias (c : Dev nD) :
    (W2 m ρ c (Proc.devRef .tc main_v16) : S1x128.Idx → Elt F .f32)
      = shapeCast S1x128 (m ((c : Thread nD τ).loc main_arg3)) Facts₀.shapeCasts_S128_S1x128 := by
  have h3 := kept1 m ρ c main_arg3 (by decide)
  dsimp only [W2, hostOps0_1]
  generalize W1 m ρ c = U at h3 ⊢
  after_results
  rw [h3]
  try rfl

/-- Every argument but the node features is, at region 0's exit, as launched: it is none of the region's arrays. -/
theorem kept3_arg (c : Dev nD) (b : Ref sig .tc)
    (hb : b ∈ [main_arg4, main_arg5, main_arg6, main_arg7, main_arg8, main_arg9, main_arg10, main_arg11]) :
    W3 m ρ c (Proc.devRef .tc b) = m ((c : Thread nD τ).loc b) := by
  simp only [List.mem_cons, List.mem_nil_iff, or_false] at hb
  rcases hb with rfl | rfl | rfl | rfl | rfl | rfl | rfl | rfl <;>
    exact (W3_of_ne m ρ c _ (by decide)).trans (kept2 m ρ c _ (by decide))

end Stretches

/-! ## Region 0's exit, over the extended reals -/

/-- The first node layer's output is the reference's, on in-range source indices. -/
theorem out0 (m : (ℓ : Loc nD τ sig) → Buf (Elt Ideal) ℓ) (ρ : Dev nD → PrngReg) (c : Dev nD) (hu : InRange (m ((c : Thread nD τ).loc main_arg10))) :
    (W3 m ρ c (Proc.devRef .tc main_v17) : S50000x128.Idx → EReal)
      = Cert.ReferenceIdeal.Stages.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) := by
  refine (W3_arr m ρ c 5).trans ?_
  rw [Cert.KernelIdeal.RegionValue.arr0 (V2 m ρ) c]
  show Cert.Lin.lin2 (M := 50000) (d1 := 64) (d2 := 128) (n := 128)
      (W2 m ρ c (Proc.devRef .tc main_arg0)) (W2 m ρ c (Proc.devRef .tc main_v13)) (W2 m ρ c (Proc.devRef .tc main_v14))
      (W2 m ρ c (Proc.devRef .tc main_v15)) (W2 m ρ c (Proc.devRef .tc main_v16)) = _
  rw [kept2 m ρ c main_arg0 (by decide), entry0_neigh m ρ c hu, entry0_wtop, entry0_wbot, entry0_bias,
    Cert.LinLaw.law_node1]
  rfl

end Cert.KernelIdeal.Chain

end
-- ==== Proof.Chain1.lean ====
/-
  The kernel's fold up to the first edge layer.

  Region 1 enters with the first node layer's output looked up at the edges' two endpoints, the two halves of the edge
  weight and its bias as a row. The index vectors are arguments nothing has written, so on in-range indices both lookups are
  bare gathers of the node output; the region's output is the dense layer of these, the reference's joined form.
-/
import proofs.«405045_j8297876816047_1_alg».proof.Proof.RefStages
import proofs.«405045_j8297876816047_1_alg».proof.Proof.Gen.KernelIdeal.Frame
import proofs.«405045_j8297876816047_1_alg».proof.Proof.TakeMask
import proofs.«405045_j8297876816047_1_alg».proof.Proof.LinLaw
import proofs.«405045_j8297876816047_1_alg».proof.Proof.Region1
import proofs.«405045_j8297876816047_1_alg».proof.Proof.Chain0
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.TakeMask

section Stretches

variable {F : FTy → Type} [FloatOps F]
variable (m : (ℓ : Loc nD τ sig) → Buf (Elt F) ℓ) (ρ : Dev nD → PrngReg)

/-! ## What the three stretches between regions 0 and 1 leave untouched -/

set_option maxHeartbeats 8000000 in
/-- The first lookup writes neither the node output nor the destination indices. -/
theorem kept4 (c : Dev nD) (b : Ref sig .tc) (hb : b ∈ [main_v17, main_arg11]) :
    W4 m ρ c (Proc.devRef .tc b) = W3 m ρ c (Proc.devRef .tc b) := by
  simp only [List.mem_cons, List.mem_nil_iff, or_false] at hb
  rcases hb with rfl | rfl <;>
    (dsimp only [W4, hostOps1]; generalize W3 m ρ c = U; after_results)

set_option maxHeartbeats 16000000 in
/-- None of these is written between region 0's exit and region 1's entry. -/
theorem kept6 (c : Dev nD) (b : Ref sig .tc)
    (hb : b ∈ [main_v17, main_arg4, main_arg5, main_arg6, main_arg7, main_arg8, main_arg9, main_arg10, main_arg11]) :
    W6 m ρ c (Proc.devRef .tc b) = W3 m ρ c (Proc.devRef .tc b) := by
  simp only [List.mem_cons, List.mem_nil_iff, or_false] at hb
  rcases hb with rfl | rfl | rfl | rfl | rfl | rfl | rfl | rfl | rfl <;>
    (dsimp only [W6, W5, W4, hostOps1_2, hostOps1_1, hostOps1]; generalize W3 m ρ c = U; after_results)

/-! ## The two lookups of the node output -/

set_option maxHeartbeats 4000000 in
/-- The node output looked up at the source endpoints: the bare gather, on in-range indices. -/
theorem lookup1u (c : Dev nD) (X : S50000x128.Idx → Elt F .f32) (h17 : W3 m ρ c (Proc.devRef .tc main_v17) = X)
    (hu : InRange (m ((c : Thread nD τ).loc main_arg10))) :
    (W4 m ρ c (Proc.devRef .tc main_v18) : S800000x128.Idx → Elt F .f32)
      = Host.gather gather_S50000x128_S800000x1_S800000x128_1_0_n_n_0_1_1128 X (wrapped (m ((c : Thread nD τ).loc main_arg10))) := by
  have hi := kept3_arg m ρ c main_arg10 (by decide)
  dsimp only [W4, hostOps1]
  generalize W3 m ρ c = V0 at h17 hi ⊢
  after_results
  strip_transports
  rw [h17, hi]
  close_lookup (m ((c : Thread nD τ).loc main_arg10)), X, FVec F S50000x128 .f32, hu, lookup128

set_option maxHeartbeats 4000000 in
/-- The node output looked up at the destination endpoints. -/
theorem lookup1v (c : Dev nD) (X : S50000x128.Idx → Elt F .f32) (h17 : W3 m ρ c (Proc.devRef .tc main_v17) = X)
    (hv : InRange (m ((c : Thread nD τ).loc main_arg11))) :
    (W5 m ρ c (Proc.devRef .tc main_v19) : S800000x128.Idx → Elt F .f32)
      = Host.gather gather_S50000x128_S800000x1_S800000x128_1_0_n_n_0_1_1128 X (wrapped (m ((c : Thread nD τ).loc main_arg11))) := by
  have hx : W4 m ρ c (Proc.devRef .tc main_v17) = X := (kept4 m ρ c main_v17 (by decide)).trans h17
  have hi : W4 m ρ c (Proc.devRef .tc main_arg11) = (m ((c : Thread nD τ).loc main_arg11)) :=
    (kept4 m ρ c main_arg11 (by decide)).trans (kept3_arg m ρ c main_arg11 (by decide))
  dsimp only [W5, hostOps1_1]
  generalize W4 m ρ c = V0 at hx hi ⊢
  after_results
  strip_transports
  rw [hx, hi]
  close_lookup (m ((c : Thread nD τ).loc main_arg11)), X, FVec F S50000x128 .f32, hv, lookup128

/-! ## Region 1's entry -/

set_option maxHeartbeats 4000000 in
theorem entry1_u (c : Dev nD) (X : S50000x128.Idx → Elt F .f32) (h17 : W3 m ρ c (Proc.devRef .tc main_v17) = X)
    (hu : InRange (m ((c : Thread nD τ).loc main_arg10))) :
    (W6 m ρ c (Proc.devRef .tc main_v18) : S800000x128.Idx → Elt F .f32)
      = Host.gather gather_S50000x128_S800000x1_S800000x128_1_0_n_n_0_1_1128 X (wrapped (m ((c : Thread nD τ).loc main_arg10))) := by
  refine Eq.trans (b := W4 m ρ c (Proc.devRef .tc main_v18)) ?_ (lookup1u m ρ c X h17 hu)
  dsimp only [W6, W5, hostOps1_2, hostOps1_1]
  generalize W4 m ρ c = U
  after_results

set_option maxHeartbeats 4000000 in
theorem entry1_v (c : Dev nD) (X : S50000x128.Idx → Elt F .f32) (h17 : W3 m ρ c (Proc.devRef .tc main_v17) = X)
    (hv : InRange (m ((c : Thread nD τ).loc main_arg11))) :
    (W6 m ρ c (Proc.devRef .tc main_v19) : S800000x128.Idx → Elt F .f32)
      = Host.gather gather_S50000x128_S800000x1_S800000x128_1_0_n_n_0_1_1128 X (wrapped (m ((c : Thread nD τ).loc main_arg11))) := by
  refine Eq.trans (b := W5 m ρ c (Proc.devRef .tc main_v19)) ?_ (lookup1v m ρ c X h17 hv)
  dsimp only [W6, hostOps1_2]
  generalize W5 m ρ c = U
  after_results

set_option maxHeartbeats 4000000 in
/-- The edge weight's first 128 rows. -/
theorem entry1_wtop (c : Dev nD) :
    (W6 m ρ c (Proc.devRef .tc main_v20) : S128x128.Idx → Elt F .f32)
      = extractStridedSlice S128x128 ![0, 0] (m ((c : Thread nD τ).loc main_arg4)) Facts₀.slices_S256x128_S128x128_0_0 := by
  have h4 := kept3_arg m ρ c main_arg4 (by decide)
  dsimp only [W6, W5, W4, hostOps1_2, hostOps1_1, hostOps1]
  generalize W3 m ρ c = U at h4 ⊢
  after_results
  rw [h4]

set_option maxHeartbeats 4000000 in
/-- The edge weight's last 128 rows. -/
theorem entry1_wbot (c : Dev nD) :
    (W6 m ρ c (Proc.devRef .tc main_v21) : S128x128.Idx → Elt F .f32)
      = extractStridedSlice S128x128 ![128, 0] (m ((c : Thread nD τ).loc main_arg4)) Facts₀.slices_S256x128_S128x128_128_0 := by
  have h4 := kept3_arg m ρ c main_arg4 (by decide)
  dsimp only [W6, W5, W4, hostOps1_2, hostOps1_1, hostOps1]
  generalize W3 m ρ c = U at h4 ⊢
  after_results
  rw [h4]

set_option maxHeartbeats 4000000 in
/-- The edge bias as a row. -/
theorem entry1_bias (c : Dev nD) :
    (W6 m ρ c (Proc.devRef .tc main_v22) : S1x128.Idx → Elt F .f32)
      = shapeCast S1x128 (m ((c : Thread nD τ).loc main_arg5)) Facts₀.shapeCasts_S128_S1x128 := by
  have h5 := kept3_arg m ρ c main_arg5 (by decide)
  dsimp only [W6, W5, W4, hostOps1_2, hostOps1_1, hostOps1]
  generalize W3 m ρ c = U at h5 ⊢
  after_results
  rw [h5]
  try rfl

/-- The node output and the later layers' arguments pass region 1 untouched: none is one of its arrays. -/
theorem kept7 (c : Dev nD) (b : Ref sig .tc)
    (hb : b ∈ [main_v17, main_arg6, main_arg7, main_arg8, main_arg9, main_arg10, main_arg11]) :
    W7 m ρ c (Proc.devRef .tc b) = W3 m ρ c (Proc.devRef .tc b) := by
  simp only [List.mem_cons, List.mem_nil_iff, or_false] at hb
  rcases hb with rfl | rfl | rfl | rfl | rfl | rfl | rfl <;>
    exact (W7_of_ne m ρ c _ (by decide)).trans (kept6 m ρ c _ (by decide))

end Stretches

/-! ## Region 1's exit, over the extended reals -/

/-- The first edge layer's output is the reference's, on in-range indices. -/
theorem out1 (m : (ℓ : Loc nD τ sig) → Buf (Elt Ideal) ℓ) (ρ : Dev nD → PrngReg) (c : Dev nD)
    (hu : InRange (m ((c : Thread nD τ).loc main_arg10))) (hv : InRange (m ((c : Thread nD τ).loc main_arg11))) :
    (W7 m ρ c (Proc.devRef .tc main_v23) : S800000x128.Idx → EReal)
      = Cert.ReferenceIdeal.Stages.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  have h17 := out0 m ρ c hu
  refine (W7_arr m ρ c 5).trans ?_
  rw [Cert.KernelIdeal.RegionValue.arr1 (V6 m ρ) c]
  show Cert.Lin.lin2 (M := 800000) (d1 := 128) (d2 := 128) (n := 128)
      (W6 m ρ c (Proc.devRef .tc main_v18)) (W6 m ρ c (Proc.devRef .tc main_v19)) (W6 m ρ c (Proc.devRef .tc main_v20))
      (W6 m ρ c (Proc.devRef .tc main_v21)) (W6 m ρ c (Proc.devRef .tc main_v22)) = _
  rw [entry1_u m ρ c _ h17 hu, entry1_v m ρ c _ h17 hv, entry1_wtop, entry1_wbot, entry1_bias, Cert.LinLaw.law_edge]
  rfl

end Cert.KernelIdeal.Chain

end
-- ==== Proof.Chain2.lean ====
/-
  The kernel's fold up to the second node layer.

  Region 2 enters with the first node layer's output, the second aggregation (source rows of that output joined with the
  first edge layer's output, summed onto destinations, divided by the in-degree), the two row-slices of the second node
  weight and its bias. Every ingredient is the reference's by the steps before; the region's output is the dense layer.
-/
import proofs.«405045_j8297876816047_1_alg».proof.Proof.RefStages
import proofs.«405045_j8297876816047_1_alg».proof.Proof.Gen.KernelIdeal.Frame
import proofs.«405045_j8297876816047_1_alg».proof.Proof.TakeMask
import proofs.«405045_j8297876816047_1_alg».proof.Proof.LinLaw
import proofs.«405045_j8297876816047_1_alg».proof.Proof.Region2
import proofs.«405045_j8297876816047_1_alg».proof.Proof.Chain1
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.TakeMask

section Stretches

variable {F : FTy → Type} [FloatOps F]
variable (m : (ℓ : Loc nD τ sig) → Buf (Elt F) ℓ) (ρ : Dev nD → PrngReg)

/-! ## What is still as it was at region 1's exit -/

/-- The later layers' arguments at region 1's exit are as launched. -/
theorem args7 (c : Dev nD) (b : Ref sig .tc)
    (hb : b ∈ [main_arg6, main_arg7, main_arg8, main_arg9, main_arg10, main_arg11]) :
    W7 m ρ c (Proc.devRef .tc b) = m ((c : Thread nD τ).loc b) := by
  simp only [List.mem_cons, List.mem_nil_iff, or_false] at hb
  rcases hb with rfl | rfl | rfl | rfl | rfl | rfl <;>
    exact (kept7 m ρ c _ (by decide)).trans (kept3_arg m ρ c _ (by decide))

set_option maxHeartbeats 8000000 in
/-- The lookup between regions 1 and 2 writes none of these. -/
theorem kept8 (c : Dev nD) (b : Ref sig .tc) (hb : b ∈ [main_v17, main_v23, main_arg6, main_arg7, main_arg11]) :
    W8 m ρ c (Proc.devRef .tc b) = W7 m ρ c (Proc.devRef .tc b) := by
  simp only [List.mem_cons, List.mem_nil_iff, or_false] at hb
  rcases hb with rfl | rfl | rfl | rfl | rfl <;>
    (dsimp only [W8, hostOps2]; generalize W7 m ρ c = U; after_results)

set_option maxHeartbeats 16000000 in
/-- Nor do the two stretches together write these. -/
theorem kept9 (c : Dev nD) (b : Ref sig .tc) (hb : b ∈ [main_v17, main_arg8, main_arg9, main_arg10, main_arg11]) :
    W9 m ρ c (Proc.devRef .tc b) = W7 m ρ c (Proc.devRef .tc b) := by
  simp only [List.mem_cons, List.mem_nil_iff, or_false] at hb
  rcases hb with rfl | rfl | rfl | rfl | rfl <;>
    (dsimp only [W9, W8, hostOps2_1, hostOps2]; generalize W7 m ρ c = U; after_results)

/-! ## The lookup, and region 2's entry -/

set_option maxHeartbeats 4000000 in
/-- The first node layer's output looked up at the source endpoints, for the second aggregation. -/
theorem lookup2 (c : Dev nD) (X : S50000x128.Idx → Elt F .f32) (h17 : W7 m ρ c (Proc.devRef .tc main_v17) = X)
    (hu : InRange (m ((c : Thread nD τ).loc main_arg10))) :
    (W8 m ρ c (Proc.devRef .tc main_v24) : S800000x128.Idx → Elt F .f32)
      = Host.gather gather_S50000x128_S800000x1_S800000x128_1_0_n_n_0_1_1128 X (wrapped (m ((c : Thread nD τ).loc main_arg10))) := by
  have hi := args7 m ρ c main_arg10 (by decide)
  dsimp only [W8, hostOps2]
  generalize W7 m ρ c = V0 at h17 hi ⊢
  after_results
  strip_transports
  rw [h17, hi]
  close_lookup (m ((c : Thread nD τ).loc main_arg10)), X, FVec F S50000x128 .f32, hu, lookup128

/-- The first node layer's output is still there at region 2's entry. -/
theorem entry2_own (c : Dev nD) (X : S50000x128.Idx → Elt F .f32) (h17 : W7 m ρ c (Proc.devRef .tc main_v17) = X) :
    (W9 m ρ c (Proc.devRef .tc main_v17) : S50000x128.Idx → Elt F .f32) = X :=
  (kept9 m ρ c main_v17 (by decide)).trans h17

set_option maxHeartbeats 4000000 in
/-- The second aggregation, on in-range source indices, is the reference's stage of the arguments. -/
theorem entry2_neigh (c : Dev nD)
    (h17 : W7 m ρ c (Proc.devRef .tc main_v17) = Cert.ReferenceIdeal.Stages.val_main_v25 (F := F) (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)))
    (h23 : W7 m ρ c (Proc.devRef .tc main_v23) = Cert.ReferenceIdeal.Stages.val_main_v45 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)))
    (hu : InRange (m ((c : Thread nD τ).loc main_arg10))) :
    (W9 m ρ c (Proc.devRef .tc main_v37) : S50000x256.Idx → Elt F .f32)
      = Cert.ReferenceIdeal.Stages.val_main_v65 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  have h24 := lookup2 m ρ c _ h17 hu
  have h23' := (kept8 m ρ c main_v23 (by decide)).trans h23
  have h11 := (kept8 m ρ c main_arg11 (by decide)).trans (args7 m ρ c main_arg11 (by decide))
  dsimp only [W9, hostOps2_1]
  generalize W8 m ρ c = U at h24 h23' h11 ⊢
  after_results
  rw [h24, h23', h11]
  rfl

set_option maxHeartbeats 4000000 in
/-- The second node weight's first 128 rows. -/
theorem entry2_wtop (c : Dev nD) :
    (W9 m ρ c (Proc.devRef .tc main_v38) : S128x128.Idx → Elt F .f32)
      = extractStridedSlice S128x128 ![0, 0] (m ((c : Thread nD τ).loc main_arg6)) Facts₀.slices_S384x128_S128x128_0_0 := by
  have h6 := args7 m ρ c main_arg6 (by decide)
  dsimp only [W9, W8, hostOps2_1, hostOps2]
  generalize W7 m ρ c = U at h6 ⊢
  after_results
  rw [h6]

set_option maxHeartbeats 4000000 in
/-- The second node weight's last 256 rows. -/
theorem entry2_wbot (c : Dev nD) :
    (W9 m ρ c (Proc.devRef .tc main_v39) : S256x128.Idx → Elt F .f32)
      = extractStridedSlice S256x128 ![128, 0] (m ((c : Thread nD τ).loc main_arg6)) Facts₀.slices_S384x128_S256x128_128_0 := by
  have h6 := args7 m ρ c main_arg6 (by decide)
  dsimp only [W9, W8, hostOps2_1, hostOps2]
  generalize W7 m ρ c = U at h6 ⊢
  after_results
  rw [h6]

set_option maxHeartbeats 4000000 in
/-- The second node bias as a row. -/
theorem entry2_bias (c : Dev nD) :
    (W9 m ρ c (Proc.devRef .tc main_v40) : S1x128.Idx → Elt F .f32)
      = shapeCast S1x128 (m ((c : Thread nD τ).loc main_arg7)) Facts₀.shapeCasts_S128_S1x128 := by
  have h7 := args7 m ρ c main_arg7 (by decide)
  dsimp only [W9, W8, hostOps2_1, hostOps2]
  generalize W7 m ρ c = U at h7 ⊢
  after_results
  rw [h7]
  try rfl

/-- The last layer's arguments pass region 2 untouched, and are as launched. -/
theorem args10 (c : Dev nD) (b : Ref sig .tc) (hb : b ∈ [main_arg8, main_arg9, main_arg10, main_arg11]) :
    W10 m ρ c (Proc.devRef .tc b) = m ((c : Thread nD τ).loc b) := by
  simp only [List.mem_cons, List.mem_nil_iff, or_false] at hb
  rcases hb with rfl | rfl | rfl | rfl <;>
    exact (W10_of_ne m ρ c _ (by decide)).trans ((kept9 m ρ c _ (by decide)).trans (args7 m ρ c _ (by decide)))

end Stretches

/-! ## Region 2's exit, over the extended reals -/

/-- The second node layer's output — the program's first result — is the reference's. -/
theorem out2 (m : (ℓ : Loc nD τ sig) → Buf (Elt Ideal) ℓ) (ρ : Dev nD → PrngReg) (c : Dev nD)
    (hu : InRange (m ((c : Thread nD τ).loc main_arg10))) (hv : InRange (m ((c : Thread nD τ).loc main_arg11))) :
    (W10 m ρ c (Proc.devRef .tc main_v41) : S50000x128.Idx → EReal)
      = Cert.ReferenceIdeal.Stages.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) := by
  have h17 := (kept7 m ρ c main_v17 (by decide)).trans (out0 m ρ c hu)
  have h23 := out1 m ρ c hu hv
  refine (W10_arr m ρ c 5).trans ?_
  rw [Cert.KernelIdeal.RegionValue.arr2 (V9 m ρ) c]
  show Cert.Lin.lin2 (M := 50000) (d1 := 128) (d2 := 256) (n := 128)
      (W9 m ρ c (Proc.devRef .tc main_v17)) (W9 m ρ c (Proc.devRef .tc main_v37)) (W9 m ρ c (Proc.devRef .tc main_v38))
      (W9 m ρ c (Proc.devRef .tc main_v39)) (W9 m ρ c (Proc.devRef .tc main_v40)) = _
  rw [entry2_own m ρ c _ h17, entry2_neigh m ρ c h17 h23 hu, entry2_wtop, entry2_wbot, entry2_bias,
    Cert.LinLaw.law_node2]
  rfl

end Cert.KernelIdeal.Chain

end
-- ==== Proof.Chain.lean ====
/-
  The kernel's fold to its end: the second edge layer, and the two results.

  Region 3 enters with the second node layer's output looked up at the edges' two endpoints, the halves of the second edge
  weight and its bias; its output is the program's second result. The first result, region 2's output, is written by
  nothing after it. Both are the reference's last stages of the launch arguments.
-/
import proofs.«405045_j8297876816047_1_alg».proof.Proof.RefStages
import proofs.«405045_j8297876816047_1_alg».proof.Proof.Gen.KernelIdeal.Frame
import proofs.«405045_j8297876816047_1_alg».proof.Proof.TakeMask
import proofs.«405045_j8297876816047_1_alg».proof.Proof.LinLaw
import proofs.«405045_j8297876816047_1_alg».proof.Proof.Region3
import proofs.«405045_j8297876816047_1_alg».proof.Proof.Chain2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.TakeMask

section Stretches

variable {F : FTy → Type} [FloatOps F]
variable (m : (ℓ : Loc nD τ sig) → Buf (Elt F) ℓ) (ρ : Dev nD → PrngReg)

/-! ## What the three stretches after region 2 leave untouched -/

set_option maxHeartbeats 8000000 in
/-- The first of the last two lookups writes neither the node output nor the destination indices. -/
theorem kept11 (c : Dev nD) (b : Ref sig .tc) (hb : b ∈ [main_v41, main_arg11]) :
    W11 m ρ c (Proc.devRef .tc b) = W10 m ρ c (Proc.devRef .tc b) := by
  simp only [List.mem_cons, List.mem_nil_iff, or_false] at hb
  rcases hb with rfl | rfl <;>
    (dsimp only [W11, hostOps3]; generalize W10 m ρ c = U; after_results)

set_option maxHeartbeats 16000000 in
/-- Nothing between region 2's exit and region 3's entry writes the second node layer's output. -/
theorem kept13 (c : Dev nD) :
    W13 m ρ c (Proc.devRef .tc main_v41) = W10 m ρ c (Proc.devRef .tc main_v41) := by
  dsimp only [W13, W12, W11, hostOps3_2, hostOps3_1, hostOps3]
  generalize W10 m ρ c = U
  after_results

/-! ## The two lookups of the second node layer's output -/

set_option maxHeartbeats 4000000 in
theorem lookup3u (c : Dev nD) (X : S50000x128.Idx → Elt F .f32) (h41 : W10 m ρ c (Proc.devRef .tc main_v41) = X)
    (hu : InRange (m ((c : Thread nD τ).loc main_arg10))) :
    (W11 m ρ c (Proc.devRef .tc main_v42) : S800000x128.Idx → Elt F .f32)
      = Host.gather gather_S50000x128_S800000x1_S800000x128_1_0_n_n_0_1_1128 X (wrapped (m ((c : Thread nD τ).loc main_arg10))) := by
  have hi := args10 m ρ c main_arg10 (by decide)
  dsimp only [W11, hostOps3]
  generalize W10 m ρ c = V0 at h41 hi ⊢
  after_results
  strip_transports
  rw [h41, hi]
  close_lookup (m ((c : Thread nD τ).loc main_arg10)), X, FVec F S50000x128 .f32, hu, lookup128

set_option maxHeartbeats 4000000 in
theorem lookup3v (c : Dev nD) (X : S50000x128.Idx → Elt F .f32) (h41 : W10 m ρ c (Proc.devRef .tc main_v41) = X)
    (hv : InRange (m ((c : Thread nD τ).loc main_arg11))) :
    (W12 m ρ c (Proc.devRef .tc main_v43) : S800000x128.Idx → Elt F .f32)
      = Host.gather gather_S50000x128_S800000x1_S800000x128_1_0_n_n_0_1_1128 X (wrapped (m ((c : Thread nD τ).loc main_arg11))) := by
  have hx : W11 m ρ c (Proc.devRef .tc main_v41) = X := (kept11 m ρ c main_v41 (by decide)).trans h41
  have hi : W11 m ρ c (Proc.devRef .tc main_arg11) = (m ((c : Thread nD τ).loc main_arg11)) :=
    (kept11 m ρ c main_arg11 (by decide)).trans (args10 m ρ c main_arg11 (by decide))
  dsimp only [W12, hostOps3_1]
  generalize W11 m ρ c = V0 at hx hi ⊢
  after_results
  strip_transports
  rw [hx, hi]
  close_lookup (m ((c : Thread nD τ).loc main_arg11)), X, FVec F S50000x128 .f32, hv, lookup128

/-! ## Region 3's entry -/

set_option maxHeartbeats 4000000 in
theorem entry3_u (c : Dev nD) (X : S50000x128.Idx → Elt F .f32) (h41 : W10 m ρ c (Proc.devRef .tc main_v41) = X)
    (hu : InRange (m ((c : Thread nD τ).loc main_arg10))) :
    (W13 m ρ c (Proc.devRef .tc main_v42) : S800000x128.Idx → Elt F .f32)
      = Host.gather gather_S50000x128_S800000x1_S800000x128_1_0_n_n_0_1_1128 X (wrapped (m ((c : Thread nD τ).loc main_arg10))) := by
  refine Eq.trans (b := W11 m ρ c (Proc.devRef .tc main_v42)) ?_ (lookup3u m ρ c X h41 hu)
  dsimp only [W13, W12, hostOps3_2, hostOps3_1]
  generalize W11 m ρ c = U
  after_results

set_option maxHeartbeats 4000000 in
theorem entry3_v (c : Dev nD) (X : S50000x128.Idx → Elt F .f32) (h41 : W10 m ρ c (Proc.devRef .tc main_v41) = X)
    (hv : InRange (m ((c : Thread nD τ).loc main_arg11))) :
    (W13 m ρ c (Proc.devRef .tc main_v43) : S800000x128.Idx → Elt F .f32)
      = Host.gather gather_S50000x128_S800000x1_S800000x128_1_0_n_n_0_1_1128 X (wrapped (m ((c : Thread nD τ).loc main_arg11))) := by
  refine Eq.trans (b := W12 m ρ c (Proc.devRef .tc main_v43)) ?_ (lookup3v m ρ c X h41 hv)
  dsimp only [W13, hostOps3_2]
  generalize W12 m ρ c = U
  after_results

set_option maxHeartbeats 4000000 in
/-- The second edge weight's first 128 rows. -/
theorem entry3_wtop (c : Dev nD) :
    (W13 m ρ c (Proc.devRef .tc main_v44) : S128x128.Idx → Elt F .f32)
      = extractStridedSlice S128x128 ![0, 0] (m ((c : Thread nD τ).loc main_arg8)) Facts₀.slices_S256x128_S128x128_0_0 := by
  have h8 := args10 m ρ c main_arg8 (by decide)
  dsimp only [W13, W12, W11, hostOps3_2, hostOps3_1, hostOps3]
  generalize W10 m ρ c = U at h8 ⊢
  after_results
  rw [h8]

set_option maxHeartbeats 4000000 in
/-- The second edge weight's last 128 rows. -/
theorem entry3_wbot (c : Dev nD) :
    (W13 m ρ c (Proc.devRef .tc main_v45) : S128x128.Idx → Elt F .f32)
      = extractStridedSlice S128x128 ![128, 0] (m ((c : Thread nD τ).loc main_arg8)) Facts₀.slices_S256x128_S128x128_128_0 := by
  have h8 := args10 m ρ c main_arg8 (by decide)
  dsimp only [W13, W12, W11, hostOps3_2, hostOps3_1, hostOps3]
  generalize W10 m ρ c = U at h8 ⊢
  after_results
  rw [h8]

set_option maxHeartbeats 4000000 in
/-- The second edge bias as a row. -/
theorem entry3_bias (c : Dev nD) :
    (W13 m ρ c (Proc.devRef .tc main_v46) : S1x128.Idx → Elt F .f32)
      = shapeCast S1x128 (m ((c : Thread nD τ).loc main_arg9)) Facts₀.shapeCasts_S128_S1x128 := by
  have h9 := args10 m ρ c main_arg9 (by decide)
  dsimp only [W13, W12, W11, hostOps3_2, hostOps3_1, hostOps3]
  generalize W10 m ρ c = U at h9 ⊢
  after_results
  rw [h9]
  try rfl

end Stretches

/-! ## The two results, over the extended reals -/

/-- The second result: the second edge layer's output is the reference's last stage. -/
theorem result1 (m : (ℓ : Loc nD τ sig) → Buf (Elt Ideal) ℓ) (ρ : Dev nD → PrngReg) (c : Dev nD)
    (hu : InRange (m ((c : Thread nD τ).loc main_arg10))) (hv : InRange (m ((c : Thread nD τ).loc main_arg11))) :
    (W14 m ρ c (Proc.devRef .tc main_v47) : S800000x128.Idx → EReal)
      = Cert.ReferenceIdeal.Stages.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h41 := out2 m ρ c hu hv
  refine (W14_arr m ρ c 5).trans ?_
  rw [Cert.KernelIdeal.RegionValue.arr3 (V13 m ρ) c]
  show Cert.Lin.lin2 (M := 800000) (d1 := 128) (d2 := 128) (n := 128)
      (W13 m ρ c (Proc.devRef .tc main_v42)) (W13 m ρ c (Proc.devRef .tc main_v43)) (W13 m ρ c (Proc.devRef .tc main_v44))
      (W13 m ρ c (Proc.devRef .tc main_v45)) (W13 m ρ c (Proc.devRef .tc main_v46)) = _
  rw [entry3_u m ρ c _ h41 hu, entry3_v m ρ c _ h41 hv, entry3_wtop, entry3_wbot, entry3_bias, Cert.LinLaw.law_edge]
  rfl

/-- The first result: region 2's output, untouched by the last stretches and the last region. -/
theorem result0 (m : (ℓ : Loc nD τ sig) → Buf (Elt Ideal) ℓ) (ρ : Dev nD → PrngReg) (c : Dev nD)
    (hu : InRange (m ((c : Thread nD τ).loc main_arg10))) (hv : InRange (m ((c : Thread nD τ).loc main_arg11))) :
    (W14 m ρ c (Proc.devRef .tc main_v41) : S50000x128.Idx → EReal)
      = Cert.ReferenceIdeal.Stages.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) :=
  (W14_of_ne m ρ c main_v41 (by decide)).trans ((kept13 m ρ c).trans (out2 m ρ c hu hv))

end Cert.KernelIdeal.Chain

end
-- ==== Proof.lean ====
/-
  Two-layer edge-aware graph network: the Pallas program against its jnp reference, over the extended reals.

  Each layer gathers node rows by the edges' source index, joins them with the edge features, sums them onto the
  destination nodes and divides by the in-degree (these are host operations, the same on both sides), then applies a dense
  layer `max([A | B]·W + bias, 0)` to the nodes and another to the edges. The kernel computes each dense layer in a
  pallas_call, one block of rows at a time, as `A·W[:d1] + B·W[d1:]`; the reference joins the columns and multiplies once.

  The two programs differ in one more place: the kernel's row lookup (`jnp.take`) puts a NaN row where an index is out of
  range, the reference's (`x[idx]`) clamps. So the claim is stated for index inputs in `[0, 50000)` — the range of the
  array they index — and there every lookup mask is all ones and the two lookups are the same gather (Proof/TakeMask.lean,
  Proof/PreRange.lean).

  * the frames of the two kernel programs are the generated ones; the reference's frame is its run, read stage by stage
    (Proof/RefRun.lean), with the results dropped;
  * `preserves` is `True`: the ideal pass rewrote nothing;
  * `algebraic`: the kernel's run with its two results named (Proof/Relaunch.lean) ends with them at the fold of @main's
    stretches and regions; that fold is read region by region — a region's output array is the dense layer of the arrays
    it entered with (Proof/Region0–3.lean), equal to the reference's joined form by splitting one sum over the joined
    columns (Proof/LinLaw.lean) — down to the reference's own stages of the launch arguments (Proof/Chain0–2.lean, Proof/Chain.lean), which is
    what the reference's run ends with.
-/
import proofs.«405045_j8297876816047_1_alg».proof.Defs
import proofs.«405045_j8297876816047_1_alg».proof.Proof.Gen.Kernel
import proofs.«405045_j8297876816047_1_alg».proof.Proof.Gen.Kernel.Skeleton
import proofs.«405045_j8297876816047_1_alg».proof.Proof.Gen.Kernel.Launch
import proofs.«405045_j8297876816047_1_alg».proof.Proof.Gen.Kernel.Points
import proofs.«405045_j8297876816047_1_alg».proof.Proof.Gen.Kernel.Frame
import proofs.«405045_j8297876816047_1_alg».proof.Proof.Gen.KernelIdeal
import proofs.«405045_j8297876816047_1_alg».proof.Proof.Gen.KernelIdeal.Skeleton
import proofs.«405045_j8297876816047_1_alg».proof.Proof.Gen.KernelIdeal.Launch
import proofs.«405045_j8297876816047_1_alg».proof.Proof.Gen.KernelIdeal.Points
import proofs.«405045_j8297876816047_1_alg».proof.Proof.Gen.KernelIdeal.Frame
import proofs.«405045_j8297876816047_1_alg».proof.Proof.Gen.ReferenceIdeal
import proofs.«405045_j8297876816047_1_alg».proof.Proof.Gen.Pre_finite_inputs
import proofs.«405045_j8297876816047_1_alg».proof.Proof.RefRun
import proofs.«405045_j8297876816047_1_alg».proof.Proof.Relaunch
import proofs.«405045_j8297876816047_1_alg».proof.Proof.PreRange
import proofs.«405045_j8297876816047_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.RunStages.run (F := Ideal) m ρ)

/-- Both programs end with the reference's two last stages of the (agreeing) arguments. -/
theorem algebraic : Cert.algebraic_KernelIdeal_ReferenceIdeal := by
  intro m ρ m' ρ' hpre hagree
  refine ⟨fun c => Cert.ReferenceIdeal.Stages.val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Stages.val_main_v91 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Results.run_results (F := Ideal) m ρ)
    obtain ⟨hu, hv⟩ := Cert.PreRange.inRange_of_pre m hpre c
    exact ⟨(h c).1.trans (Cert.KernelIdeal.Chain.result0 m ρ c hu hv),
      (h c).2.1.trans (Cert.KernelIdeal.Chain.result1 m ρ c hu hv), (h c).2.2⟩
  · refine (θ_run Cert.ReferenceIdeal.defs _ _).mono (fun r h c => ?_) (Cert.ReferenceIdeal.RunStages.run (F := Ideal) m' ρ')
    obtain ⟨h0, h1, h2, h3, h4, h5, h6, h7, h8, h9, h10, h11⟩ := hagree c
    refine ⟨(h c).1.trans ?_, (h c).2.1.trans ?_, (h c).2.2⟩
    · rw [h0, h1, h2, h3, h4, h5, h6, h7, h10, h11]
    · rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
